-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000 : Shape := ⟨1, ![500000]⟩
abbrev S2 : Shape := ⟨1, ![2]⟩
abbrev S128x128 : Shape := ⟨2, ![128, 128]⟩
abbrev S128 : Shape := ⟨1, ![128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S2 : S_.BroadcastsInDim S2 (![] : Fin 0 → Fin S2.rank)
  reducesTo_S2_S_d0 : S2.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S500000 : S_.BroadcastsInDim S500000 (![] : Fin 0 → Fin S500000.rank)
  reducesTo_S500000_S_d0 : S500000.ReducesTo [0] S_

variable [Facts]

def fn_part1 {F : FTy → Type} [FloatOps F] (main_arg1 : IVec S500000 32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S500000 32 := broadcastInDim S500000 ![] bcast_S_S500000 main_c_8
  let main_v25 : IVec S500000 1 := cmpi .sge main_arg1 main_v24
  let main_c_9 : IVec S_ 1 := constantI S_ 1 1#1
  let main_v26 : IVec S_ 1 := (fun x v => Host.reduce IntOp.andi x v reducesTo_S500000_S_d0 h_S_) main_v25 main_c_9
  let main_v27 : IVec S_ 1 := andi main_v23 main_v26
  main_v27

def fn {F : FTy → Type} [FloatOps F] (main_arg0 : FVec F S500000x128 .f32) (main_arg1 : IVec S500000 32) (main_arg2 : FVec F S2 .f32) (main_arg3 : FVec F S2 .f32) (main_arg4 : FVec F S128x128 .f32) (main_arg5 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S2 .f32 := Host.absf main_arg2
  let main_cst_0 : FVec F S_ .f32 := constant S_ .f32 0x7F800000#32
  let main_v5 : FVec F S2 .f32 := broadcastInDim S2 ![] bcast_S_S2 main_cst_0
  let main_v6 : IVec S2 1 := cmpf .olt main_v4 main_v5
  let main_c_1 : IVec S_ 1 := constantI S_ 1 1#1
  let main_v7 : IVec S_ 1 := (fun x v => Host.reduce IntOp.andi x v reducesTo_S2_S_d0 h_S_) main_v6 main_c_1
  let main_v8 : IVec S_ 1 := andi main_v3 main_v7
  let main_v9 : FVec F S2 .f32 := Host.absf main_arg3
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_v13 main_v16
-- ==== Kernel.lean ====
abbrev S500000x128 : Shape := ⟨2, ![500000, 128]⟩
abbrev S500000 : Shape := ⟨1, ![500000]⟩
abbrev S2 : Shape := ⟨1, ![2]⟩
abbrev S128x128 : Shape := ⟨2, ![128, 128]⟩
abbrev S128 : Shape := ⟨1, ![128]⟩
abbrev S_ : Shape := ⟨0, ![]⟩
abbrev S1 : Shape := ⟨1, ![1]⟩
abbrev S1x64 : Shape := ⟨2, ![1, 64]⟩
abbrev S1x128 : Shape := ⟨2, ![1, 128]⟩
abbrev S500736x128 : Shape := ⟨2, ![500736, 128]⟩
abbrev S500736 : Shape := ⟨1, ![500736]⟩
abbrev S1x500736 : Shape := ⟨2, ![1, 500736]⟩
abbrev S1024x128 : Shape := ⟨2, ![1024, 128]⟩
abbrev S3072x128 : Shape := ⟨2, ![3072, 128]⟩
abbrev S1x3072 : Shape := ⟨2, ![1, 3072]⟩
abbrev S1024x3072 : Shape := ⟨2, ![1024, 3072]⟩
abbrev S1024x64 : Shape := ⟨2, ![1024, 64]⟩
abbrev S1024 : Shape := ⟨1, ![1024]⟩
abbrev S500000x1 : Shape := ⟨2, ![500000, 1]⟩
abbrev S1024x1 : Shape := ⟨2, ![1024, 1]⟩

abbrev nBuf : Space → Nat
  | .hbm => 88
  | .vmem => 7
  | .smem => 0
  | _ => 0

abbrev bufTy : (tb : Table) → Fin (tcTables nBuf tb) → BufTy
  | .hbm, ⟨0, _⟩ => ⟨S500000x128, .f32⟩
  | .hbm, ⟨1, _⟩ => ⟨S500000, .i32⟩
  | .hbm, ⟨2, _⟩ => ⟨S2, .f32⟩
  | .hbm, ⟨3, _⟩ => ⟨S2, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S2, .f32⟩
  | .hbm, ⟨8, _⟩ => ⟨S2, .f32⟩
  | .hbm, ⟨9, _⟩ => ⟨S2, .f32⟩
  | .hbm, ⟨10, _⟩ => ⟨S2, .f32⟩
  | .hbm, ⟨11, _⟩ => ⟨S2, .i1⟩
  | .hbm, ⟨12, _⟩ => ⟨S2, .f32⟩
  | .hbm, ⟨13, _⟩ => ⟨S2, .f32⟩
  | .hbm, ⟨14, _⟩ => ⟨S2, .f32⟩
  | .hbm, ⟨15, _⟩ => ⟨S2, .f32⟩
  | .hbm, ⟨16, _⟩ => ⟨S2, .f32⟩
  | .hbm, ⟨17, _⟩ => ⟨S2, .f32⟩
  | .hbm, ⟨18, _⟩ => ⟨S2, .f32⟩
  | .hbm, ⟨19, _⟩ => ⟨S2, .f32⟩
  | .hbm, ⟨20, _⟩ => ⟨S2, .f32⟩
  | .hbm, ⟨21, _⟩ => ⟨S_, .f32⟩
  | .hbm, ⟨22, _⟩ => ⟨S2, .f32⟩
  | .hbm, ⟨23, _⟩ => ⟨S2, .i1⟩
  | .hbm, ⟨24, _⟩ => ⟨S2, .f32⟩
  | .hbm, ⟨25, _⟩ => ⟨S_, .f32⟩
  | .hbm, ⟨26, _⟩ => ⟨S_, .f32⟩
  | .hbm, ⟨27, _⟩ => ⟨S2, .f32⟩
  | .hbm, ⟨28, _⟩ => ⟨S2, .f32⟩
  | .hbm, ⟨29, _⟩ => ⟨S2, .f32⟩
  | .hbm, ⟨30, _⟩ => ⟨S2, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S1x64, .f32⟩
  | .hbm, ⟨36, _⟩ => ⟨S1x64, .f32⟩
  | .hbm, ⟨37, _⟩ => ⟨S1x128, .f32⟩
  | .hbm, ⟨38, _⟩ => ⟨S_, .i32⟩
  | .hbm, ⟨39, _⟩ => ⟨S_, .f32⟩
  | .hbm, ⟨40, _⟩ => ⟨S500736x128, .f32⟩
  | .hbm, ⟨41, _⟩ => ⟨S_, .i32⟩
  | .hbm, ⟨42, _⟩ => ⟨S_, .i32⟩
  | .hbm, ⟨43, _⟩ => ⟨S500736, .i32⟩
  | .hbm, ⟨44, _⟩ => ⟨S1x500736, .i32⟩
  | .hbm, ⟨45, _⟩ => ⟨S1024x128, .f32⟩
  | .hbm, ⟨46, _⟩ => ⟨S1024x64, .f32⟩
  | .hbm, ⟨47, _⟩ => ⟨S1024x64, .f32⟩
  | .hbm, ⟨48, _⟩ => ⟨S_, .f32⟩
  | .hbm, ⟨49, _⟩ => ⟨S1024, .f32⟩
  | .hbm, ⟨50, _⟩ => ⟨S_, .i32⟩
  | .hbm, ⟨51, _⟩ => ⟨S500000, .i32⟩
  | .hbm, ⟨52, _⟩ => ⟨S500000, .i1⟩
  | .hbm, ⟨53, _⟩ => ⟨S_, .i32⟩
  | .hbm, ⟨54, _⟩ => ⟨S500000, .i32⟩
  | .hbm, ⟨55, _⟩ => ⟨S500000, .i32⟩
  | .hbm, ⟨56, _⟩ => ⟨S500000, .i32⟩
  | .hbm, ⟨57, _⟩ => ⟨S500000x1, .i32⟩
  | .hbm, ⟨58, _⟩ => ⟨S_, .f32⟩
  | .hbm, ⟨59, _⟩ => ⟨S500000, .f32⟩
  | .hbm, ⟨60, _⟩ => ⟨S1024, .f32⟩
  | .hbm, ⟨61, _⟩ => ⟨S1024x1, .f32⟩
  | .hbm, ⟨62, _⟩ => ⟨S1024x64, .f32⟩
  | .hbm, ⟨63, _⟩ => ⟨S1024x64, .f32⟩
  | .hbm, ⟨64, _⟩ => ⟨S1024x64, .f32⟩
  | .hbm, ⟨65, _⟩ => ⟨S1024x64, .f32⟩
  | .hbm, ⟨66, _⟩ => ⟨S1, .f32⟩
  | .hbm, ⟨67, _⟩ => ⟨S_, .f32⟩
  | .hbm, ⟨68, _⟩ => ⟨S1024x1, .f32⟩
  | .hbm, ⟨69, _⟩ => ⟨S1024x1, .f32⟩
  | .hbm, ⟨70, _⟩ => ⟨S1024x64, .f32⟩
  | .hbm, ⟨71, _⟩ => ⟨S1024x64, .f32⟩
  | .hbm, ⟨72, _⟩ => ⟨S_, .f32⟩
  | .hbm, ⟨73, _⟩ => ⟨S_, .f32⟩
  | .hbm, ⟨74, _⟩ => ⟨S1024x64, .f32⟩
  | .hbm, ⟨75, _⟩ => ⟨S1024x64, .f32⟩
  | .hbm, ⟨76, _⟩ => ⟨S1, .f32⟩
  | .hbm, ⟨77, _⟩ => ⟨S_, .f32⟩
  | .hbm, ⟨78, _⟩ => ⟨S1024x1, .f32⟩
  | .hbm, ⟨79, _⟩ => ⟨S1024x1, .f32⟩
  | .hbm, ⟨80, _⟩ => ⟨S1024x64, .f32⟩
  | .hbm, ⟨81, _⟩ => ⟨S1024x64, .f32⟩
  | .hbm, ⟨82, _⟩ => ⟨S1024x128, .f32⟩
  | .hbm, ⟨83, _⟩ => ⟨S128x128, .f32⟩
  | .hbm, ⟨84, _⟩ => ⟨S1024x128, .f32⟩
  | .hbm, ⟨85, _⟩ => ⟨S1x128, .f32⟩
  | .hbm, ⟨86, _⟩ => ⟨S1024x128, .f32⟩
  | .hbm, ⟨87, _⟩ => ⟨S1024x128, .f32⟩
  | .local _ .vmem, ⟨0, _⟩ => ⟨S3072x128, .f32⟩
  | .local _ .vmem, ⟨1, _⟩ => ⟨S3072x128, .f32⟩
  | .local _ .vmem, ⟨2, _⟩ => ⟨S1x3072, .i32⟩
  | .local _ .vmem, ⟨3, _⟩ => ⟨S1x3072, .i32⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c : Ref sig .tc := ⟨.hbm, 38, rfl⟩
abbrev main_call2_v0 : Ref sig .tc := ⟨.hbm, 39, rfl⟩
abbrev main_v15 : Ref sig .tc := ⟨.hbm, 40, rfl⟩
abbrev main_c_1 : Ref sig .tc := ⟨.hbm, 41, rfl⟩
abbrev main_call3_v0 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_2 : Ref sig .tc := ⟨.hbm, 48, rfl⟩
abbrev main_v21 : Ref sig .tc := ⟨.hbm, 49, rfl⟩
abbrev main_c_3 : Ref sig .tc := ⟨.hbm, 50, rfl⟩
abbrev main_v22 : Ref sig .tc := ⟨.hbm, 51, rfl⟩
abbrev main_v23 : Ref sig .tc := ⟨.hbm, 52, rfl⟩
abbrev main_c_4 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_5 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_6 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![163], ![false]⟩

def k0_cond2 (i : grid0.Coords) : BitVec 1 :=
  let arg0 : BitVec 32 := BitVec.ofNat 32 (i 0).val
  let c162_i32 : BitVec 32 := 162#32
  let v29 : BitVec 1 := Scalar.cmpi .eq arg0 c162_i32
  let v30 : BitVec 32 := Scalar.extui v29
  let c0_i32_11 : BitVec 32 := 0#32
  let v31 : BitVec 1 := Scalar.cmpi .ne v30 c0_i32_11
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3072x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3072 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S2 : S_.BroadcastsInDim S2 (![] : Fin 0 → Fin S2.rank)
  slices_S2_S1_0 : S2.Slices ![0] S1
  shapeCasts_S1_S_ : S1.ShapeCasts S_
  slices_S2_S1_1 : S2.Slices ![1] S1
  bcast_S_S1x64 : S_.BroadcastsInDim S1x64 (![] : Fin 0 → Fin S1x64.rank)
  concatenates_S1x64_S1x64_S1x128_d1 : Shape.Concatenates [S1x64, S1x64] S1x128 1
  pads_S500000x128_S500736x128_07360_000 : S500000x128.Pads (![0, 0] : Fin 2 → Nat) ![736, 0] ![0, 0] S500736x128
  h_S_ : 0 < S_.numel
  pads_S500000_S500736_07360 : S500000.Pads (![0] : Fin 1 → Nat) ![736] ![0] S500736
  bcast_S500736_S1x500736_1 : S500736.BroadcastsInDim S1x500736 (![1] : Fin 1 → Fin S1x500736.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S3072x128_S3072x128_0_0 : ∀ a, (![0, 0] : Fin 2 → Nat) a + S3072x128.size a ≤ S3072x128.size a
  h_S3072x128 : 0 < S3072x128.numel
  shapeCasts_S3072x128_S3072x128 : S3072x128.ShapeCasts S3072x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3072x128 : S1x128.Broadcasts S3072x128
  bitsLt_bf16_f32 : FTy.bits .bf16 < FTy.bits .f32
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  iota_S1024x3072_d0_w32 : S1024x3072.Iotas .tc 32 [0]
  broadcasts_S1x3072_S1024x3072 : S1x3072.Broadcasts S1024x3072
  natLt_1_32 : 1 < 32
  slices_S1024x128_S1024x64_0_0 : S1024x128.Slices ![0, 0] S1024x64
  slices_S1024x128_S1024x64_0_64 : S1024x128.Slices ![0, 64] S1024x64
  bcast_S_S1024 : S_.BroadcastsInDim S1024 (![] : Fin 0 → Fin S1024.rank)
  bcast_S_S500000 : S_.BroadcastsInDim S500000 (![] : Fin 0 → Fin S500000.rank)
  bcast_S500000_S500000x1_0 : S500000.BroadcastsInDim S500000x1 (![0] : Fin 1 → Fin S500000x1.rank)
  bcast_S1024_S1024x1_0 : S1024.BroadcastsInDim S1024x1 (![0] : Fin 1 → Fin S1024x1.rank)
  bcast_S_S1024x64 : S_.BroadcastsInDim S1024x64 (![] : Fin 0 → Fin S1024x64.rank)
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  concatenates_S1024x64_S1024x64_S1024x128_d1 : Shape.Concatenates [S1024x64, S1024x64] S1024x128 1
  transposes_S128x128_S128x128_1_0 : S128x128.Transposes [1, 0] S128x128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  dot_S1024x3072_S3072x128_S1024x128_1_0_0_1_n_n_wf : DotDims.WF S1024x3072 S3072x128 S1024x128 [1] [0] [0] [1] [] []
  scatter_S1024_S500000x1_S500000_n_0_0_1_wf : ScatterDims.WF S1024 S500000x1 S500000 [] [0] [0] 1
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3072x128.size a ≤ S500736x128.size a
  hwx0_0 : ∀ i : grid0.Coords, EltTy.bits .f32 = 32 ∨ (Rect.block (s := S500736x128) S3072x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3072.size a ≤ S1x500736.size a
  hwx0_1 : ∀ i : grid0.Coords, EltTy.bits .i32 = 32 ∨ (Rect.block (s := S1x500736) S1x3072.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)

variable [Facts₀]

def dot_S1024x3072_S3072x128_S1024x128_1_0_0_1_n_n : DotDims S1024x3072 S3072x128 S1024x128 where
  lhsContracting := [1]
  rhsContracting := [0]
  lhsNonContracting := [0]
  rhsNonContracting := [1]
  lhsBatch := []
  rhsBatch := []
  wf := dot_S1024x3072_S3072x128_S1024x128_1_0_0_1_n_n_wf
def scatter_S1024_S500000x1_S500000_n_0_0_1 : ScatterDims S1024 S500000x1 S500000 where
  updateWindowDims := []
  insertedWindowDims := [0]
  scatterDimsToOperandDims := [0]
  indexVectorDim := 1
  wf := scatter_S1024_S500000x1_S500000_n_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v15) S3072x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1024x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S500000x128 : Shape := ⟨2, ![500000, 128]⟩
abbrev S500000 : Shape := ⟨1, ![500000]⟩
abbrev S2 : Shape := ⟨1, ![2]⟩
abbrev S128x128 : Shape := ⟨2, ![128, 128]⟩
abbrev S128 : Shape := ⟨1, ![128]⟩
abbrev S_ : Shape := ⟨0, ![]⟩
abbrev S1024 : Shape := ⟨1, ![1024]⟩
abbrev S500000x1 : Shape := ⟨2, ![500000, 1]⟩
abbrev S1024x1 : Shape := ⟨2, ![1024, 1]⟩
abbrev S1 : Shape := ⟨1, ![1]⟩
abbrev S500000x64 : Shape := ⟨2, ![500000, 64]⟩
abbrev S1024x64 : Shape := ⟨2, ![1024, 64]⟩
abbrev S1024x128 : Shape := ⟨2, ![1024, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000, .i32⟩
  | .hbm, ⟨2, _⟩ => ⟨S2, .f32⟩
  | .hbm, ⟨3, _⟩ => ⟨S2, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S2, .f32⟩
  | .hbm, ⟨8, _⟩ => ⟨S2, .f32⟩
  | .hbm, ⟨9, _⟩ => ⟨S2, .f32⟩
  | .hbm, ⟨10, _⟩ => ⟨S2, .f32⟩
  | .hbm, ⟨11, _⟩ => ⟨S2, .i1⟩
  | .hbm, ⟨12, _⟩ => ⟨S2, .f32⟩
  | .hbm, ⟨13, _⟩ => ⟨S2, .f32⟩
  | .hbm, ⟨14, _⟩ => ⟨S2, .f32⟩
  | .hbm, ⟨15, _⟩ => ⟨S2, .f32⟩
  | .hbm, ⟨16, _⟩ => ⟨S2, .f32⟩
  | .hbm, ⟨17, _⟩ => ⟨S2, .f32⟩
  | .hbm, ⟨18, _⟩ => ⟨S2, .f32⟩
  | .hbm, ⟨19, _⟩ => ⟨S2, .f32⟩
  | .hbm, ⟨20, _⟩ => ⟨S2, .f32⟩
  | .hbm, ⟨21, _⟩ => ⟨S_, .f32⟩
  | .hbm, ⟨22, _⟩ => ⟨S2, .f32⟩
  | .hbm, ⟨23, _⟩ => ⟨S2, .i1⟩
  | .hbm, ⟨24, _⟩ => ⟨S2, .f32⟩
  | .hbm, ⟨25, _⟩ => ⟨S_, .f32⟩
  | .hbm, ⟨26, _⟩ => ⟨S_, .f32⟩
  | .hbm, ⟨27, _⟩ => ⟨S2, .f32⟩
  | .hbm, ⟨28, _⟩ => ⟨S2, .f32⟩
  | .hbm, ⟨29, _⟩ => ⟨S2, .f32⟩
  | .hbm, ⟨30, _⟩ => ⟨S2, .f32⟩
  | .hbm, ⟨31, _⟩ => ⟨S_, .f32⟩
  | .hbm, ⟨32, _⟩ => ⟨S500000, .f32⟩
  | .hbm, ⟨33, _⟩ => ⟨S_, .f32⟩
  | .hbm, ⟨34, _⟩ => ⟨S1024, .f32⟩
  | .hbm, ⟨35, _⟩ => ⟨S500000x1, .i32⟩
  | .hbm, ⟨36, _⟩ => ⟨S1024, .f32⟩
  | .hbm, ⟨37, _⟩ => ⟨S1024x1, .f32⟩
  | .hbm, ⟨38, _⟩ => ⟨S500000x128, .f32⟩
  | .hbm, ⟨39, _⟩ => ⟨S_, .f32⟩
  | .hbm, ⟨40, _⟩ => ⟨S500000x128, .f32⟩
  | .hbm, ⟨41, _⟩ => ⟨S500000x128, .f32⟩
  | .hbm, ⟨42, _⟩ => ⟨S1, .f32⟩
  | .hbm, ⟨43, _⟩ => ⟨S_, .f32⟩
  | .hbm, ⟨44, _⟩ => ⟨S500000x64, .f32⟩
  | .hbm, ⟨45, _⟩ => ⟨S500000x64, .f32⟩
  | .hbm, ⟨46, _⟩ => ⟨S500000x64, .f32⟩
  | .hbm, ⟨47, _⟩ => ⟨S500000x64, .f32⟩
  | .hbm, ⟨48, _⟩ => ⟨S500000x64, .f32⟩
  | .hbm, ⟨49, _⟩ => ⟨S_, .f32⟩
  | .hbm, ⟨50, _⟩ => ⟨S1024x64, .f32⟩
  | .hbm, ⟨51, _⟩ => ⟨S500000x1, .i32⟩
  | .hbm, ⟨52, _⟩ => ⟨S1024x64, .f32⟩
  | .hbm, ⟨53, _⟩ => ⟨S1024x64, .f32⟩
  | .hbm, ⟨54, _⟩ => ⟨S1, .f32⟩
  | .hbm, ⟨55, _⟩ => ⟨S_, .f32⟩
  | .hbm, ⟨56, _⟩ => ⟨S1024x64, .f32⟩
  | .hbm, ⟨57, _⟩ => ⟨S1024x64, .f32⟩
  | .hbm, ⟨58, _⟩ => ⟨S1024x64, .f32⟩
  | .hbm, ⟨59, _⟩ => ⟨S1, .f32⟩
  | .hbm, ⟨60, _⟩ => ⟨S_, .f32⟩
  | .hbm, ⟨61, _⟩ => ⟨S1024x1, .f32⟩
  | .hbm, ⟨62, _⟩ => ⟨S1024x1, .f32⟩
  | .hbm, ⟨63, _⟩ => ⟨S1024x64, .f32⟩
  | .hbm, ⟨64, _⟩ => ⟨S1024x64, .f32⟩
  | .hbm, ⟨65, _⟩ => ⟨S500000x64, .f32⟩
  | .hbm, ⟨66, _⟩ => ⟨S1, .f32⟩
  | .hbm, ⟨67, _⟩ => ⟨S_, .f32⟩
  | .hbm, ⟨68, _⟩ => ⟨S500000x64, .f32⟩
  | .hbm, ⟨69, _⟩ => ⟨S500000x64, .f32⟩
  | .hbm, ⟨70, _⟩ => ⟨S_, .f32⟩
  | .hbm, ⟨71, _⟩ => ⟨S1024x64, .f32⟩
  | .hbm, ⟨72, _⟩ => ⟨S500000x1, .i32⟩
  | .hbm, ⟨73, _⟩ => ⟨S1024x64, .f32⟩
  | .hbm, ⟨74, _⟩ => ⟨S1, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S1024x64, .f32⟩
  | .hbm, ⟨79, _⟩ => ⟨S1024x64, .f32⟩
  | .hbm, ⟨80, _⟩ => ⟨S1, .f32⟩
  | .hbm, ⟨81, _⟩ => ⟨S_, .f32⟩
  | .hbm, ⟨82, _⟩ => ⟨S1024x1, .f32⟩
  | .hbm, ⟨83, _⟩ => ⟨S1024x1, .f32⟩
  | .hbm, ⟨84, _⟩ => ⟨S1024x64, .f32⟩
  | .hbm, ⟨85, _⟩ => ⟨S1024x64, .f32⟩
  | .hbm, ⟨86, _⟩ => ⟨S1024x128, .f32⟩
  | .hbm, ⟨87, _⟩ => ⟨S128x128, .f32⟩
  | .hbm, ⟨88, _⟩ => ⟨S1024x128, .f32⟩
  | .hbm, ⟨89, _⟩ => ⟨S1x128, .f32⟩
  | .hbm, ⟨90, _⟩ => ⟨S1024x128, .f32⟩
  | .hbm, ⟨91, _⟩ => ⟨S1024x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_cst_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩

abbrev nD : Nat := 1
abbrev τ : Topo := Topo.v7x

variable {F : FTy → Type} [FloatOps F]

class Facts₀ : Prop where
  bcast_S_S2 : S_.BroadcastsInDim S2 (![] : Fin 0 → Fin S2.rank)
  bcast_S_S500000 : S_.BroadcastsInDim S500000 (![] : Fin 0 → Fin S500000.rank)
  bcast_S_S1024 : S_.BroadcastsInDim S1024 (![] : Fin 0 → Fin S1024.rank)
  bcast_S500000_S500000x1_0 : S500000.BroadcastsInDim S500000x1 (![0] : Fin 1 → Fin S500000x1.rank)
  bcast_S1024_S1024x1_0 : S1024.BroadcastsInDim S1024x1 (![0] : Fin 1 → Fin S1024x1.rank)
  bcast_S_S500000x128 : S_.BroadcastsInDim S500000x128 (![] : Fin 0 → Fin S500000x128.rank)
  slices_S2_S1_0 : S2.Slices ![0] S1
  shapeCasts_S1_S_ : S1.ShapeCasts S_
  slices_S500000x128_S500000x64_0_0 : S500000x128.Slices ![0, 0] S500000x64
  bcast_S_S500000x64 : S_.BroadcastsInDim S500000x64 (![] : Fin 0 → Fin S500000x64.rank)
  bcast_S_S1024x64 : S_.BroadcastsInDim S1024x64 (![] : Fin 0 → Fin S1024x64.rank)
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  slices_S500000x128_S500000x64_0_64 : S500000x128.Slices ![0, 64] S500000x64
  slices_S2_S1_1 : S2.Slices ![1] S1
  concatenates_S1024x64_S1024x64_S1024x128_d1 : Shape.Concatenates [S1024x64, S1024x64] S1024x128 1
  transposes_S128x128_S128x128_1_0 : S128x128.Transposes [1, 0] S128x128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  scatter_S1024_S500000x1_S500000_n_0_0_1_wf : ScatterDims.WF S1024 S500000x1 S500000 [] [0] [0] 1
  scatter_S1024x64_S500000x1_S500000x64_1_0_0_1_wf : ScatterDims.WF S1024x64 S500000x1 S500000x64 [1] [0] [0] 1
  dot_S1024x128_S128x128_S1024x128_1_0_0_1_n_n_wf : DotDims.WF S1024x128 S128x128 S1024x128 [1] [0] [0] [1] [] []

variable [Facts₀]

def scatter_S1024_S500000x1_S500000_n_0_0_1 : ScatterDims S1024 S500000x1 S500000 where
  updateWindowDims := []
  insertedWindowDims := [0]
  scatterDimsToOperandDims := [0]
  indexVectorDim := 1
  wf := scatter_S1024_S500000x1_S500000_n_0_0_1_wf
def scatter_S1024x64_S500000x1_S500000x64_1_0_0_1 : ScatterDims S1024x64 S500000x1 S500000x64 where
  updateWindowDims := [1]
  insertedWindowDims := [0]
  scatterDimsToOperandDims := [0]
  indexVectorDim := 1
  wf := scatter_S1024x64_S500000x1_S500000x64_1_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

class Facts : Prop extends Facts₀ where

variable [Facts]
-- ==== Proof.KBody.lean ====
/-
  What one grid point leaves behind, case by case.

  The kernel keeps a running [1024, 128] block of segment sums in a scratch buffer. At every point it adds to that block the
  point's partial product `onehot · T` (the payload `k0_pay2`: the scratch as loaded, plus the matrix product); at the first
  point the scratch is zeroed first, and at the last point the updated scratch is also copied into the output's buffer.
  So each case's contents are one application of the payload: to the zero block (first point), or to what the point
  before left (every other point); the last point's output buffer holds the same block as its scratch.
-/
import proofs.«429115_j46815143526536_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

theorem hz : (![0, 0] : Fin 2 → Nat) = fun _ => 0 := funext fun a => by fin_cases a <;> rfl

/-- One point's update of the running block `acc`, from the point's feature block `x`, id row `seg` and exponent row `p`. -/
abbrev step (x : Vec F S3072x128 .f32) (seg : Vec F S1x3072 .i32) (p : Vec F S1x128 .f32) (acc : Vec F S1024x128 .f32) :
    Vec F S1024x128 .f32 := k0_pay2 x p seg acc

/-- The zero block the first point stores before it accumulates. -/
abbrev zeroBlock : Vec F S1024x128 .f32 := k0_pay1

/-- A middle point leaves in the scratch the update of what the point before left. -/
theorem scratch_B (c : Dev nD) (i : grid0.Coords) (a1 : Memref sig .tc .vmem S3072x128 .f32) (h1 : a1.IsWhole)
    (a2 : Memref sig .tc .vmem S1x3072 .i32) (h2 : a2.IsWhole) (a3 : Memref sig .tc .vmem S1x128 .f32) (h3 : a3.IsWhole)
    (a4 : Memref sig .tc .vmem S1024x128 .f32) (h4 : a4.IsWhole) (a5 : Memref sig .tc .vmem S1024x128 .f32) (h5 : a5.IsWhole)
    (hc0 : ¬cond0_0 i) (hc1 : ¬cond0_1 i) (x0 : Vec F S3072x128 .f32) (x1 : Vec F S1x3072 .i32) (x2 : Vec F S1x128 .f32)
    (xs0 : Vec F S1024x128 .f32) :
    sout0_B_0 c i a1 h1 a2 h2 a3 h3 a4 h4 a5 h5 hc0 hc1 x0 x1 x2 xs0 = step x0 x1 x2 xs0 := by
  unfold sout0_B_0
  rw [View.read_writes_eq_canon _ _ _ (scover0_B_0 c i a1 h1 a2 h2 a3 h3 a4 h4 a5 h5 hc0 hc1 x0 x1 x2 xs0)]
  unfold kernelRun0_B
  dsimp only
  sl_unfold_words
  rw [View.canon_unit_zero hz]
  simp only [View.readAt_eq_ld, h1.read_unread, h2.read_unread, h3.read_unread, h5.read_unread,
    View.ld_unit_zero (S := S3072x128) hz, View.ld_unit_zero (S := S1x3072) hz, View.ld_unit_zero (S := S1x128) hz,
    View.ld_unit_zero (S := S1024x128) hz]

/-- The last point leaves the same update in the scratch … -/
theorem scratch_C (c : Dev nD) (i : grid0.Coords) (a1 : Memref sig .tc .vmem S3072x128 .f32) (h1 : a1.IsWhole)
    (a2 : Memref sig .tc .vmem S1x3072 .i32) (h2 : a2.IsWhole) (a3 : Memref sig .tc .vmem S1x128 .f32) (h3 : a3.IsWhole)
    (a4 : Memref sig .tc .vmem S1024x128 .f32) (h4 : a4.IsWhole) (a5 : Memref sig .tc .vmem S1024x128 .f32) (h5 : a5.IsWhole)
    (hc0 : ¬cond0_0 i) (hc1 : cond0_1 i) (x0 : Vec F S3072x128 .f32) (x1 : Vec F S1x3072 .i32) (x2 : Vec F S1x128 .f32)
    (xs0 : Vec F S1024x128 .f32) :
    sout0_C_0 c i a1 h1 a2 h2 a3 h3 a4 h4 a5 h5 hc0 hc1 x0 x1 x2 xs0 = step x0 x1 x2 xs0 := by
  unfold sout0_C_0
  rw [View.read_writes_eq_canon _ _ _ (scover0_C_0 c i a1 h1 a2 h2 a3 h3 a4 h4 a5 h5 hc0 hc1 x0 x1 x2 xs0)]
  unfold kernelRun0_C
  dsimp only
  sl_unfold_words
  rw [View.canon_unit_zero hz]
  simp only [View.readAt_eq_ld, h1.read_unread, h2.read_unread, h3.read_unread, h5.read_unread,
    View.ld_unit_zero (S := S3072x128) hz, View.ld_unit_zero (S := S1x3072) hz, View.ld_unit_zero (S := S1x128) hz,
    View.ld_unit_zero (S := S1024x128) hz]

/-- … and copies it into the output's buffer: the scratch is read back after the store. -/
theorem out_C (c : Dev nD) (i : grid0.Coords) (a1 : Memref sig .tc .vmem S3072x128 .f32) (h1 : a1.IsWhole)
    (a2 : Memref sig .tc .vmem S1x3072 .i32) (h2 : a2.IsWhole) (a3 : Memref sig .tc .vmem S1x128 .f32) (h3 : a3.IsWhole)
    (a4 : Memref sig .tc .vmem S1024x128 .f32) (h4 : a4.IsWhole) (a5 : Memref sig .tc .vmem S1024x128 .f32) (h5 : a5.IsWhole)
    (hc0 : ¬cond0_0 i) (hc1 : cond0_1 i) (x0 : Vec F S3072x128 .f32) (x1 : Vec F S1x3072 .i32) (x2 : Vec F S1x128 .f32)
    (xs0 : Vec F S1024x128 .f32) :
    out0_C_3 c i a1 h1 a2 h2 a3 h3 a4 h4 a5 h5 hc0 hc1 x0 x1 x2 xs0 = step x0 x1 x2 xs0 := by
  unfold out0_C_3
  rw [View.read_writes_eq_canon _ _ _ (cover0_C_3 c i a1 h1 a2 h2 a3 h3 a4 h4 a5 h5 hc0 hc1 x0 x1 x2 xs0)]
  unfold kernelRun0_C
  dsimp only
  sl_unfold_words
  rw [View.canon_unit_zero hz]
  simp only [View.readAt_eq_ld, h1.read_unread, h2.read_unread, h3.read_unread, h5.read_unread,
    View.readCov_unit_zero (S := S1024x128) _ hz,
    View.ld_unit_zero (S := S3072x128) hz, View.ld_unit_zero (S := S1x3072) hz, View.ld_unit_zero (S := S1x128) hz,
    View.ld_unit_zero (S := S1024x128) hz]

/-- The first point zeroes the scratch and then updates it: the update of the zero block. -/
theorem scratch_A (c : Dev nD) (i : grid0.Coords) (a1 : Memref sig .tc .vmem S3072x128 .f32) (h1 : a1.IsWhole)
    (a2 : Memref sig .tc .vmem S1x3072 .i32) (h2 : a2.IsWhole) (a3 : Memref sig .tc .vmem S1x128 .f32) (h3 : a3.IsWhole)
    (a4 : Memref sig .tc .vmem S1024x128 .f32) (h4 : a4.IsWhole) (a5 : Memref sig .tc .vmem S1024x128 .f32) (h5 : a5.IsWhole)
    (hc0 : cond0_0 i) (hc1 : ¬cond0_1 i) (x0 : Vec F S3072x128 .f32) (x1 : Vec F S1x3072 .i32) (x2 : Vec F S1x128 .f32) :
    sout0_A_0 c i a1 h1 a2 h2 a3 h3 a4 h4 a5 h5 hc0 hc1 x0 x1 x2 = step x0 x1 x2 zeroBlock := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1024x128) hz]
  simp only [View.readAt_eq_ld, h1.read_unread, h2.read_unread, h3.read_unread, h5.read_unread,
    View.readCov_unit_zero (S := S1024x128) _ hz,
    View.ld_unit_zero (S := S3072x128) hz, View.ld_unit_zero (S := S1x3072) hz, View.ld_unit_zero (S := S1x128) hz,
    View.ld_unit_zero (S := S1024x128) hz]

end Cert.KernelIdeal.KVal

end
-- ==== Proof.KAccum.lean ====
/-
  The running block after each grid point.

  After point `n` the scratch holds the zero block updated by the points `0, 1, …, n` in turn: `acc`, by recursion on the
  point. The frame's point-by-point contents are that recursion (induction on the point, one case lemma per step), and at
  the last point the output's buffer holds the same block as the scratch.
-/
import proofs.«429115_j46815143526536_1_alg».proof.Proof.KBody

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]
variable (m : (ℓ : Loc nD τ sig) → Buf (Elt F) ℓ)

/-- Point `t`'s block of the padded features, of the padded id row and of the exponent row, at their literal types. -/
abbrev xblk (c : Dev nD) (t : Fin cfg0.N) : Vec F S3072x128 .f32 := iblk m c 0 t
abbrev sblk (c : Dev nD) (t : Fin cfg0.N) : Vec F S1x3072 .i32 := iblk m c 1 t
abbrev pblk (c : Dev nD) (t : Fin cfg0.N) : Vec F S1x128 .f32 := iblk m c 2 t

/-- The running block after point `n`: the zero block updated by the points `0 … n` in order. -/
def acc (c : Dev nD) : (n : ℕ) → n < cfg0.N → Vec F S1024x128 .f32
  | 0, h => step (xblk m c ⟨0, h⟩) (sblk m c ⟨0, h⟩) (pblk m c ⟨0, h⟩) zeroBlock
  | n + 1, h => step (xblk m c ⟨n + 1, h⟩) (sblk m c ⟨n + 1, h⟩) (pblk m c ⟨n + 1, h⟩) (acc c n (Nat.lt_of_succ_lt h))

/-- The scratch after point `n` is the running block: by induction on the point. -/
theorem scratchAt_eq (c : Dev nD) : ∀ (n : ℕ) (h : n < cfg0.N), (outsAt0 m c n h).2 = acc m c n h
  | 0, h => by
    rw [outsAt0_A m c ⟨0, h⟩ rfl (by dsimp only; omega)]
    dsimp only
    exact scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) scM0_0 (Memref.isWhole_whole _) _ _ (xblk m c ⟨0, h⟩) (sblk m c ⟨0, h⟩) (pblk m c ⟨0, h⟩)
  | n + 1, h => by
    have hN : cfg0.N = 163 := N_0
    have h0 : ¬(⟨n + 1, h⟩ : Fin cfg0.N).val % 163 = 0 := by dsimp only; omega
    by_cases h1 : (⟨n + 1, h⟩ : Fin cfg0.N).val % 163 = 162
    · rw [outsAt0_C m c ⟨n + 1, h⟩ h0 h1]
      dsimp only
      rw [scratch_C c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) scM0_0 (Memref.isWhole_whole _) _ _
        (xblk m c ⟨n + 1, h⟩) (sblk m c ⟨n + 1, h⟩) (pblk m c ⟨n + 1, h⟩) _]
      show step _ _ _ (outsAt0 m c n _).2 = step _ _ _ (acc m c n _)
      rw [scratchAt_eq c n]
    · rw [outsAt0_B m c ⟨n + 1, h⟩ h0 h1]
      dsimp only
      rw [scratch_B c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) scM0_0 (Memref.isWhole_whole _) _ _
        (xblk m c ⟨n + 1, h⟩) (sblk m c ⟨n + 1, h⟩) (pblk m c ⟨n + 1, h⟩) _]
      show step _ _ _ (outsAt0 m c n _).2 = step _ _ _ (acc m c n _)
      rw [scratchAt_eq c n]

/-- At the last point the output's buffer holds the running block too. -/
theorem outAt_last (c : Dev nD) (h : 162 < cfg0.N) : (outsAt0 m c 162 h).1 = acc m c 162 h := by
  have h0 : ¬(⟨162, h⟩ : Fin cfg0.N).val % 163 = 0 := by dsimp only; omega
  have h1 : (⟨162, h⟩ : Fin cfg0.N).val % 163 = 162 := by dsimp only
  rw [outsAt0_C m c ⟨162, h⟩ h0 h1]
  dsimp only
  rw [out_C c (grid0.coords ⟨162, h⟩) (ms0_0 ⟨162, h⟩) (hs0_0 ⟨162, h⟩) (ms0_1 ⟨162, h⟩) (hs0_1 ⟨162, h⟩)
    (ms0_2 ⟨162, h⟩) (hs0_2 ⟨162, h⟩) (ms0_3 ⟨162, h⟩) (hs0_3 ⟨162, h⟩) scM0_0 (Memref.isWhole_whole _) _ _
    (xblk m c ⟨162, h⟩) (sblk m c ⟨162, h⟩) (pblk m c ⟨162, h⟩) _]
  show step _ _ _ (outsAt0 m c 161 _).2 = step _ _ _ (acc m c 161 _)
  rw [scratchAt_eq m c 161]

end Cert.KernelIdeal.KVal

end
-- ==== Proof.KFinal.lean ====
/-
  The kernel's result array after the run.

  The output window has ONE block, the whole [1024, 128] array, and it is written back once, after the last grid point.
  What is written back is the running block after that point, so the result array ends holding it.
-/
import proofs.«429115_j46815143526536_1_alg».proof.Proof.KAccum

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]
variable (m : (ℓ : Loc nD τ sig) → Buf (Elt F) ℓ)

theorem lastLt : 162 < cfg0.N := by rw [show cfg0.N = 163 from N_0]; decide

/-- The last grid point. -/
abbrev tLast : Fin cfg0.N := ⟨162, lastLt⟩

/-- The segment sums the kernel computes: the running block after the last point, as contents of the result array. -/
abbrev result (c : Dev nD) : Buf (Elt F) ((c : Thread nD τ).loc main_v18) := acc m c 162 lastLt

/-- The one write-back, at the last point, writes the running block: block (0, 0) of the array is the array. -/
theorem flushed_eq (c : Dev nD) (t : Fin cfg0.N) (hf : (cfg0.win 3).flush t = true) :
    (dats m 0 c).flushed 3 t = ((cfg0.win 3).blk t).view.read (Elt F) (result m c) := by
  have hN : cfg0.N = 163 := N_0
  have h3 : t.val = 162 := by have := (flush0_3 t).mp hf; have := t.isLt; omega
  obtain rfl : t = tLast := Fin.ext h3
  show (cfg0.win 3).cut (grid0.coords tLast) ((dats m 0 c).after 3 tLast) = _
  rw [after0_3, outAt_last]
  have hz' : (fun a => win0_3.index tLast a * main_v18.ty.shape.size a) = fun _ => 0 :=
    funext fun a => by fin_cases a <;> decide +kernel
  exact (Memref.read_access_unit_zero (Elt F) main_v18 hz' (fun a => by rw [congrFun hz' a]; simp) (result m c)).symm

/-- So the result array ends holding the running block after the last point. -/
theorem final_out (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v18).slice (win0_3.rect tLast)).set
      rw [View.set_slice_whole, Rect.mem_set_unit]
      intro a
      have h0 : (i 0 : Nat) < 1024 := (i 0).isLt
      have h1 : (i 1 : Nat) < 128 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 1024 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [show win0_3.index tLast 1 * win0_3.size 1 = 0 from by decide +kernel, show win0_3.xsize (grid0.coords tLast) 1 = 128 from by decide +kernel]; omega⟩

end Cert.KernelIdeal.KVal

end
-- ==== Proof.Spec.lean ====
/-
  The quantity both programs compute before the per-segment normalisation.

  Every node `n` carries a feature row `x[n, :]` and a segment id `seg[n]`. Each feature is first moved off zero,
  `|v| + ε`, and raised to a power `p`; the kernel spells the power `exp (p · log (|v| + ε))`. Entry `(r, d)` of the
  segment sum adds that power of feature `(n, d)` over the nodes `n` whose id, read as a signed number, is the row `r`;
  a node whose id is no row in `[0, 1024)` is counted nowhere.
-/
import Idealize.ShloMosaic.PureOps.Ideal
import Idealize.ShloMosaic.Lib.ValueIdx

noncomputable section

open scoped BigOperators

namespace Cert.SegPow

open Idealize.ShloMosaic Idealize.ShloMosaic.ValueIdx

/-- `|v| + ε` on the extended reals, `ε` the single-precision number both programs spell for `1e-6`. -/
def shifted (v : EReal) : EReal := max v (-v) + Ideal.ofBits .f32 0x358637BD#32

/-- `exp (p · log (|v| + ε))`: the power `(|v| + ε) ^ p`, spelt through the logarithm. -/
def powTerm (p v : EReal) : EReal := Ideal.exp (p * Ideal.log (shifted v))

/-- Entry `(r, d)` of the segment sum with exponent `p`: over the nodes whose segment id, read signed, is `r`, the sum
    of `powTerm p` of feature `(n, d)`. -/
def segSum (x : (⟨2, ![500000, 128]⟩ : Shape).Idx → EReal) (seg : (⟨1, ![500000]⟩ : Shape).Idx → BitVec 32) (p : EReal)
    (r : Fin 1024) (d : Fin 128) : EReal :=
  ∑ n : Fin 500000, if (seg (ix1 n)).toInt = (r.val : ℤ) then powTerm p (x (ix2 n d)) else 0

/-- The same sum with the power spelt `(|v| + ε) ^ p` directly, as the reference spells its second half. -/
def segSumPow (x : (⟨2, ![500000, 128]⟩ : Shape).Idx → EReal) (seg : (⟨1, ![500000]⟩ : Shape).Idx → BitVec 32) (p : EReal)
    (r : Fin 1024) (d : Fin 128) : EReal :=
  ∑ n : Fin 500000, if (seg (ix1 n)).toInt = (r.val : ℤ) then Ideal.pow (shifted (x (ix2 n d))) p else 0

end Cert.SegPow

end
-- ==== Proof.KStep.lean ====
/-
  One point's update read at an entry, at the ideal values.

  The update adds to entry `(r, d)` of the running block the matrix product `∑ₖ mask(r, k) · T(k, d)` over the point's
  3072 rows `k`: `mask(r, k)` is the condition "row `k`'s segment id is the word `r`" converted to a number, and
  `T(k, d) = exp (p(d) · log (|x(k, d)| + ε))`. The changes of float format are the identity on the extended reals and the
  product accumulates into a zero block, so nothing else is left of the payload.
-/
import proofs.«429115_j46815143526536_1_alg».proof.Proof.KBody
import proofs.«429115_j46815143526536_1_alg».proof.Proof.Spec
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.KernelIdeal.KVal

open Cert.KernelIdeal Cert.KernelIdeal.Gen Cert.SegPow

/-- The condition "the id word `w` is the row number `r`", widened to a word and converted as the kernel converts it. -/
def hit (w : BitVec 32) (r : Fin 1024) : EReal :=
  (((((IntOp.cmpi .eq (BitVec.ofNat 32 r.val) w).setWidth 32).toInt : ℤ) : ℝ) : EReal)

theorem lhs_mm_0 (i : S1024x128.Idx) (q : dot_S1024x3072_S3072x128_S1024x128_1_0_0_1_n_n.contr.Idx) :
    (dot_S1024x3072_S3072x128_S1024x128_1_0_0_1_n_n.lhsIdx i q 0).val = (i 0).val := by
  unfold DotDims.lhsIdx
  rw [dif_neg (show ¬(0 : Fin S1024x3072.rank) ∈ dot_S1024x3072_S3072x128_S1024x128_1_0_0_1_n_n.lhsBatch by decide), dif_pos (show (0 : Fin S1024x3072.rank) ∈ dot_S1024x3072_S3072x128_S1024x128_1_0_0_1_n_n.lhsNonContracting by decide)]
  rfl
theorem lhs_mm_1 (i : S1024x128.Idx) (q : dot_S1024x3072_S3072x128_S1024x128_1_0_0_1_n_n.contr.Idx) :
    (dot_S1024x3072_S3072x128_S1024x128_1_0_0_1_n_n.lhsIdx i q 1).val = (q ⟨0, by decide⟩).val :=
  dot_S1024x3072_S3072x128_S1024x128_1_0_0_1_n_n.lhsIdx_val_of_single rfl i q
theorem rhs_mm_0 (i : S1024x128.Idx) (q : dot_S1024x3072_S3072x128_S1024x128_1_0_0_1_n_n.contr.Idx) :
    (dot_S1024x3072_S3072x128_S1024x128_1_0_0_1_n_n.rhsIdx i q 0).val = (q ⟨0, by decide⟩).val :=
  dot_S1024x3072_S3072x128_S1024x128_1_0_0_1_n_n.rhsIdx_val_of_single rfl i q
theorem rhs_mm_1 (i : S1024x128.Idx) (q : dot_S1024x3072_S3072x128_S1024x128_1_0_0_1_n_n.contr.Idx) :
    (dot_S1024x3072_S3072x128_S1024x128_1_0_0_1_n_n.rhsIdx i q 1).val = (i 1).val := by
  unfold DotDims.rhsIdx
  rw [dif_neg (show ¬(1 : Fin S3072x128.rank) ∈ dot_S1024x3072_S3072x128_S1024x128_1_0_0_1_n_n.rhsBatch by decide), dif_pos (show (1 : Fin S3072x128.rank) ∈ dot_S1024x3072_S3072x128_S1024x128_1_0_0_1_n_n.rhsNonContracting by decide)]
  rfl

/-- The mask operand at `(r, k)`: row `k`'s id compared with the row number. -/
theorem mask_apply (seg : Vec Ideal S1x3072 .i32) (r : Fin 1024) (k : Fin 3072) :
    (truncf .bf16 (sitofp (F := Ideal) .f32 (extui 32 (cmpi .eq (iota .tc S1024x3072 32 [0] iota_S1024x3072_d0_w32)
      (broadcastTo S1024x3072 (shapeCast S1x3072 seg shapeCasts_S1x3072_S1x3072) broadcasts_S1x3072_S1024x3072)) natLt_1_32)) bitsLt_bf16_f32
        : FVec Ideal S1024x3072 .bf16) (ix2 r k) = hit (seg (ix2 0 k)) r := by
  have hb : broadcastTo S1024x3072 (shapeCast S1x3072 seg shapeCasts_S1x3072_S1x3072) broadcasts_S1x3072_S1024x3072 (ix2 r k)
      = seg (ix2 0 k) := by
    rw [broadcastTo_apply _ broadcasts_S1x3072_S1024x3072 (ix2 r k) (ix2 0 k) (fun a => by
      match a with
      | ⟨0, _⟩ => rfl
      | ⟨1, _⟩ => rfl), shapeCast_self]
  show (((((IntOp.cmpi .eq (iota .tc S1024x3072 32 [0] iota_S1024x3072_d0_w32 (ix2 r k))
    (broadcastTo S1024x3072 (shapeCast S1x3072 seg shapeCasts_S1x3072_S1x3072) broadcasts_S1x3072_S1024x3072 (ix2 r k))).setWidth 32).toInt : ℤ) : ℝ) : EReal) = _
  rw [hb, iota_single_apply]
  rfl

/-- The transformed features at `(k, d)`: `exp (p(d) · log (|x(k, d)| + ε))`. -/
theorem feat_apply (x : Vec Ideal S3072x128 .f32) (p : Vec Ideal S1x128 .f32) (k : Fin 3072) (d : Fin 128) :
    (truncf .bf16 (exp (mulf (broadcastTo S3072x128 (shapeCast S1x128 p shapeCasts_S1x128_S1x128) broadcasts_S1x128_S3072x128)
      (log (addf (absf (shapeCast S3072x128 x shapeCasts_S3072x128_S3072x128)) (broadcast S3072x128 (Scalar.ofBits .f32 0x358637BD#32))))))
        bitsLt_bf16_f32 : FVec Ideal S3072x128 .bf16) (ix2 k d) = powTerm (p (ix2 0 d)) (x (ix2 k d)) := by
  have hb : broadcastTo S3072x128 (shapeCast S1x128 p shapeCasts_S1x128_S1x128) broadcasts_S1x128_S3072x128 (ix2 k d)
      = p (ix2 0 d) := by
    rw [broadcastTo_apply _ broadcasts_S1x128_S3072x128 (ix2 k d) (ix2 0 d) (fun a => by
      match a with
      | ⟨0, _⟩ => rfl
      | ⟨1, _⟩ => rfl), shapeCast_self]
  show Ideal.exp (broadcastTo S3072x128 (shapeCast S1x128 p shapeCasts_S1x128_S1x128) broadcasts_S1x128_S3072x128 (ix2 k d)
    * Ideal.log (max (shapeCast S3072x128 x shapeCasts_S3072x128_S3072x128 (ix2 k d)) (-(shapeCast S3072x128 x shapeCasts_S3072x128_S3072x128 (ix2 k d)))
      + Ideal.ofBits .f32 0x358637BD#32)) = _
  rw [hb, shapeCast_self]
  rfl

/-- THE UPDATE AT AN ENTRY: the running block there plus the masked sum over the point's rows. -/
theorem step_apply (x : Vec Ideal S3072x128 .f32) (seg : Vec Ideal S1x3072 .i32) (p : Vec Ideal S1x128 .f32)
    (acc : Vec Ideal S1024x128 .f32) (r : Fin 1024) (d : Fin 128) :
    step (F := Ideal) x seg p acc (ix2 r d)
      = acc (ix2 r d) + ∑ k : Fin 3072, hit (seg (ix2 0 k)) r * powTerm (p (ix2 0 d)) (x (ix2 k d)) := by
  show k0_pay2 (F := Ideal) x p seg acc (ix2 r d) = _
  unfold k0_pay2
  dsimp only
  rw [shapeCast_self, addf_apply]
  simp only [matmul]
  rw [Ideal.matmul_constant_zero_apply,
    ← Equiv.sum_comp (ValueIdx.contrEquiv1 dot_S1024x3072_S3072x128_S1024x128_1_0_0_1_n_n 3072 rfl rfl).symm]
  congr 1
  refine Finset.sum_congr rfl fun k _ => ?_
  have hk := ValueIdx.contrEquiv1_symm_val dot_S1024x3072_S3072x128_S1024x128_1_0_0_1_n_n 3072 rfl rfl k
  have el : dot_S1024x3072_S3072x128_S1024x128_1_0_0_1_n_n.lhsIdx (ix2 r d) ((ValueIdx.contrEquiv1 dot_S1024x3072_S3072x128_S1024x128_1_0_0_1_n_n 3072 rfl rfl).symm k) = ix2 r k := funext fun a => Fin.ext (by
    match a with
    | ⟨0, _⟩ => exact lhs_mm_0 _ _
    | ⟨1, _⟩ => exact (lhs_mm_1 _ _).trans hk)
  have er : dot_S1024x3072_S3072x128_S1024x128_1_0_0_1_n_n.rhsIdx (ix2 r d) ((ValueIdx.contrEquiv1 dot_S1024x3072_S3072x128_S1024x128_1_0_0_1_n_n 3072 rfl rfl).symm k) = ix2 k d := funext fun a => Fin.ext (by
    match a with
    | ⟨0, _⟩ => exact (rhs_mm_0 _ _).trans hk
    | ⟨1, _⟩ => exact rhs_mm_1 _ _)
  rw [el, er, mask_apply, feat_apply]

end Cert.KernelIdeal.KVal

end
-- ==== Proof.KBlocks.lean ====
/-
  The blocks the grid points read.

  Point `t` reads rows `3072·t … 3072·t + 3071` of the padded features (all 128 columns), the same stretch of the padded id
  row, and the whole exponent row: a block's coordinate on an axis is the block index times the block size plus the
  coordinate inside the block.
-/
import proofs.«429115_j46815143526536_1_alg».proof.Proof.KAccum
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

variable {F : FTy → Type} [FloatOps F]
variable (m : (ℓ : Loc nD τ sig) → Buf (Elt F) ℓ)

/-- The arrays the three input windows stage, as the region finds them, at their literal types. -/
abbrev featArr (c : Dev nD) : FVec F S500736x128 .f32 := V m c main_v15
abbrev segArr (c : Dev nD) : IVec S1x500736 32 := V m c main_v17
abbrev expArr (c : Dev nD) : FVec F S1x128 .f32 := V m c main_v14

/-- The index maps, decided once over the grid. -/
theorem idx_feat : ∀ t : Fin cfg0.N, win0_0.index t 0 = t.val ∧ win0_0.index t 1 = 0 :=
  (by decide +kernel : ∀ t : Fin grid0.N, win0_0.index t 0 = t.val ∧ win0_0.index t 1 = 0)
theorem idx_seg : ∀ t : Fin cfg0.N, win0_1.index t 0 = 0 ∧ win0_1.index t 1 = t.val :=
  (by decide +kernel : ∀ t : Fin grid0.N, win0_1.index t 0 = 0 ∧ win0_1.index t 1 = t.val)
theorem idx_exp : ∀ t : Fin cfg0.N, win0_2.index t 0 = 0 ∧ win0_2.index t 1 = 0 :=
  (by decide +kernel : ∀ t : Fin grid0.N, win0_2.index t 0 = 0 ∧ win0_2.index t 1 = 0)

/-- Row `3072·t + k` is a row of the padded arrays. -/
theorem row_lt (t : Fin cfg0.N) (k : Fin 3072) : 3072 * t.val + k.val < 500736 := by
  have := t.isLt; have := k.isLt; have : cfg0.N = 163 := N_0; omega

theorem xblk_apply (c : Dev nD) (t : Fin cfg0.N) (k : Fin 3072) (d : Fin 128) :
    xblk m c t (ix2 k d) = featArr m c (ix2 ⟨3072 * t.val + k.val, row_lt t k⟩ d) := by
  have hi := idx_feat t
  unfold xblk iblk
  rw [View.read_apply]
  show V m c main_v15 _ = V m c main_v15 _
  congr 1
  funext a
  apply Fin.ext
  match a with
  | ⟨0, _⟩ => show win0_0.index t 0 * 3072 + 1 * k.val = 3072 * t.val + k.val; rw [hi.1]; omega
  | ⟨1, _⟩ => show win0_0.index t 1 * 128 + 1 * d.val = d.val; rw [hi.2]; omega

theorem sblk_apply (c : Dev nD) (t : Fin cfg0.N) (k : Fin 3072) :
    sblk m c t (ix2 0 k) = segArr m c (ix2 0 ⟨3072 * t.val + k.val, row_lt t k⟩) := by
  have hi := idx_seg t
  unfold sblk iblk
  rw [View.read_apply]
  show V m c main_v17 _ = V m c main_v17 _
  congr 1
  funext a
  apply Fin.ext
  match a with
  | ⟨0, _⟩ => show win0_1.index t 0 * 1 + 1 * 0 = 0; rw [hi.1]
  | ⟨1, _⟩ => show win0_1.index t 1 * 3072 + 1 * k.val = 3072 * t.val + k.val; rw [hi.2]; omega

theorem pblk_apply (c : Dev nD) (t : Fin cfg0.N) (d : Fin 128) :
    pblk m c t (ix2 0 d) = expArr m c (ix2 0 d) := by
  have hi := idx_exp t
  unfold pblk iblk
  rw [View.read_apply]
  show V m c main_v14 _ = V m c main_v14 _
  congr 1
  funext a
  apply Fin.ext
  match a with
  | ⟨0, _⟩ => show win0_2.index t 0 * 1 + 1 * 0 = 0; rw [hi.1]
  | ⟨1, _⟩ => show win0_2.index t 1 * 128 + 1 * d.val = d.val; rw [hi.2]; omega

end Cert.KernelIdeal.KVal

end
-- ==== Proof.KHost.lean ====
/-
  What the kernel's three input windows stage, as the region finds them.

  The host pads the features with 736 zero rows and the segment ids with 736 copies of the id 1024, which is no row of
  the result, so that 163 blocks of 3072 rows cover them; the id vector is then laid out as one row. The exponent row
  holds the first exponent in its columns 0 … 63 and the second in its columns 64 … 127. Here each array is read at an
  entry: a row below 500000 of the padded arrays is the argument's row, a row from 500000 on carries the id 1024.
-/
import proofs.«429115_j46815143526536_1_alg».proof.Proof.KBlocks
import Idealize.ShloMosaic.Lib.StableHlo.Run
import Idealize.ShloMosaic.Lib.KernelVsHost
import Idealize.ShloMosaic.Lib.IdealHost
import Idealize.ShloMosaic.Lib.Pipeline.Value
import proofs.«429115_j46815143526536_1_alg».proof.Proof.Gen.ReferenceIdeal.Read

noncomputable section

open Idealize.ShloMosaic Idealize.ShloMosaic.TcCoe Idealize.SL.Sem Idealize.ShloMosaic.ValueIdx Idealize.ShloMosaic.StableHlo

namespace Cert.KernelIdeal.KVal

open Cert.KernelIdeal Cert.KernelIdeal.Gen

variable {F : FTy → Type} [FloatOps F]
variable (m : (ℓ : Loc nD τ sig) → Buf (Elt F) ℓ)

/-- The two exponents, as the rank-0 arrays the host slices out of the exponent vector before the region: the same
    host operations on the exponent argument as the reference program applies, so stated as the reference's stages. -/
abbrev exp0 (c : Dev nD) : FVec F S_ .f32 :=
  Cert.ReferenceIdeal.Read.val_main_v17 (F := F) (m ((c : Thread nD τ).loc main_arg2))
abbrev exp1 (c : Dev nD) : FVec F S_ .f32 :=
  Cert.ReferenceIdeal.Read.val_main_v40 (F := F) (m ((c : Thread nD τ).loc main_arg2))

theorem V_feat (c : Dev nD) : (V m c main_v15 : FVec F S500736x128 .f32) =
    pad S500736x128 ![0, 0] ![736, 0] ![0, 0] (m ((c : Thread nD τ).loc main_arg0)) (sitofp (F := F) .f32 (constantI S_ 32 0#32))
      pads_S500000x128_S500736x128_07360_000 h_S_ := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results
  rfl

theorem V_seg (c : Dev nD) : (V m c main_v17 : IVec S1x500736 32) =
    broadcastInDim S1x500736 ![1] bcast_S500736_S1x500736_1
      (pad S500736 ![0] ![736] ![0] (m ((c : Thread nD τ).loc main_arg1)) (constantI S_ 32 1024#32) pads_S500000_S500736_07360 h_S_) := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results
  rfl

set_option maxHeartbeats 8000000 in
set_option maxRecDepth 8192 in
theorem V_exp (c : Dev nD) : (V m c main_v14 : FVec F S1x128 .f32) =
    concatenate S1x128 1 [⟨S1x64, broadcastInDim S1x64 ![] bcast_S_S1x64 (exp0 m c)⟩,
      ⟨S1x64, broadcastInDim S1x64 ![] bcast_S_S1x64 (exp1 m c)⟩] concatenates_S1x64_S1x64_S1x128_d1 := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results_simp <;> rfl

set_option maxHeartbeats 8000000 in
set_option maxRecDepth 8192 in
/-- The host's two exponent scalars and its `tanh` of the second parameter vector, which the lines after the region read
    again: the reference's stages of the same arguments. -/
theorem V_exp0 (c : Dev nD) : (V m c main_v9 : FVec F S_ .f32) = exp0 m c := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results_simp <;> rfl
set_option maxHeartbeats 8000000 in
set_option maxRecDepth 8192 in
theorem V_exp1 (c : Dev nD) : (V m c main_v11 : FVec F S_ .f32) = exp1 m c := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results_simp <;> rfl
theorem V_tanh (c : Dev nD) : (V m c main_v7 : FVec F S2 .f32)
    = Cert.ReferenceIdeal.Read.val_main_v7 (F := F) (m ((c : Thread nD τ).loc main_arg3)) := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results_simp <;> rfl

/-- A row below 500000 of the padded features is the argument's row. -/
theorem featArr_inside (c : Dev nD) (n : Fin 500000) (d : Fin 128) :
    featArr m c (ix2 ⟨n.val, by have := n.isLt; omega⟩ d) = m ((c : Thread nD τ).loc main_arg0) (ix2 n d) := by
  unfold featArr
  rw [V_feat]
  exact pad_apply_of_inside _ _ _ _ _ pads_S500000x128_S500736x128_07360_000 h_S_ _ (ix2 n d) (fun a => by
    match a with
    | ⟨0, _⟩ => show n.val = 0 + n.val * (0 + 1); omega
    | ⟨1, _⟩ => show d.val = 0 + d.val * (0 + 1); omega)

/-- A row below 500000 of the padded id row is the argument's id. -/
theorem segArr_inside (c : Dev nD) (n : Fin 500000) :
    segArr m c (ix2 0 ⟨n.val, by have := n.isLt; omega⟩) = m ((c : Thread nD τ).loc main_arg1) (ix1 n) := by
  unfold segArr
  rw [V_seg, broadcastInDim_apply _ bcast_S500736_S1x500736_1 _ _ (ix1 ⟨n.val, by have := n.isLt; omega⟩) (fun a => by
    match a with
    | ⟨0, _⟩ => show n.val = if (500736 : Nat) = 1 then 0 else n.val; rw [if_neg (by decide)])]
  exact pad_apply_of_inside _ _ _ _ _ pads_S500000_S500736_07360 h_S_ _ (ix1 n) (fun a => by
    match a with
    | ⟨0, _⟩ => show n.val = 0 + n.val * (0 + 1); omega)

/-- A row from 500000 on carries the id 1024. -/
theorem segArr_outside (c : Dev nD) (n : Fin 500736) (hn : 500000 ≤ n.val) :
    segArr m c (ix2 0 n) = 1024#32 := by
  unfold segArr
  rw [V_seg, broadcastInDim_apply _ bcast_S500736_S1x500736_1 _ _ (ix1 n) (fun a => by
    match a with
    | ⟨0, _⟩ => show n.val = if (500736 : Nat) = 1 then 0 else n.val; rw [if_neg (by decide)])]
  rw [pad_apply_of_not_inside _ _ _ _ _ pads_S500000_S500736_07360 h_S_ (ix1 n) 0 (by
    show ¬(0 ≤ n.val ∧ (n.val - 0) % (0 + 1) = 0 ∧ (n.val - 0) / (0 + 1) < 500000)
    omega)]
  rfl

/-- The exponent row holds the first exponent in its left half … -/
theorem expArr_left (c : Dev nD) (d : Fin 128) (hd : d.val < 64) : expArr m c (ix2 0 d) = exp0 m c ix0 := by
  unfold expArr
  rw [V_exp, concatenate_pair_apply_left 1 _ _ concatenates_S1x64_S1x64_S1x128_d1 (ix2 0 d) rfl (ix2 0 ⟨d.val, hd⟩) (fun b => by
    match b with
    | ⟨0, _⟩ => rfl
    | ⟨1, _⟩ => rfl)]
  exact broadcastInDim_scalar_apply bcast_S_S1x64 _ _

/-- … and the second in its right half. -/
theorem expArr_right (c : Dev nD) (d : Fin 128) (hd : 64 ≤ d.val) : expArr m c (ix2 0 d) = exp1 m c ix0 := by
  unfold expArr
  rw [V_exp, concatenate_pair_apply_right 1 _ _ concatenates_S1x64_S1x64_S1x128_d1 (ix2 0 d) rfl rfl
    (ix2 0 ⟨d.val - 64, by have := d.isLt; omega⟩) (fun b hb => by
      match b with
      | ⟨0, _⟩ => rfl
      | ⟨1, _⟩ => exact absurd rfl hb) (by show (d.val - 64) + 64 = d.val; omega)]
  exact broadcastInDim_scalar_apply bcast_S_S1x64 _ _

end Cert.KernelIdeal.KVal

end
-- ==== Proof.SegMath.lean ====
/-
  The arithmetic under the segment power sum, on the extended reals and on finite sums.

  Three groups of facts.

  The power. A feature `v` is moved off zero to `|v| + ε`, a positive real, and there the spelling
  `exp (p · log a)` is the power `a ^ p` for every exponent `p`, the two infinite exponents included: for a real
  `p` this is the definition of the real power of a positive base, and for `p = ±∞` the product `p · log a` is
  `±∞` or `0` by the sign of `log a`, that is by `a` being above, at or below `1`, which is the case split
  the power itself makes. So the segment sum spelt with `exp ∘ log` and the one spelt with the power agree term by term.

  Sums over blocks. A sum over `A · B` consecutive indices is the sum over `A` blocks of the sums over the `B`
  indices of each block; and indices from `A` on, where every term is zero, may be dropped.

  Words and condition bits. A 32-bit word equals the word of a number below `1024` exactly when its signed reading is
  that number; a condition bit widened to a word and read as a number is `1` or `0`; and multiplying by such a
  `1` or `0` selects the term or drops it, also when the term is infinite.
-/
import proofs.«429115_j46815143526536_1_alg».proof.Proof.Spec
import Mathlib.Analysis.SpecialFunctions.Pow.Real
import Mathlib.Algebra.BigOperators.Fin
import Mathlib.Logic.Equiv.Fin.Basic

noncomputable section

open scoped BigOperators

namespace Cert.SegPow

open Idealize.ShloMosaic Idealize.ShloMosaic.ValueIdx

/-! ### Sums over blocks -/

/-- A sum over `A · B` consecutive indices, read as `A` blocks of `B`: index `B · t + k` is the `k`-th of block `t`. -/
theorem sum_blocks {M : Type*} [AddCommMonoid M] (A B : ℕ) (g : ℕ → M) :
    ∑ t : Fin A, ∑ k : Fin B, g (B * t.val + k.val) = ∑ n : Fin (A * B), g n.val := by
  calc ∑ t : Fin A, ∑ k : Fin B, g (B * t.val + k.val)
      = ∑ tk : Fin A × Fin B, g (B * tk.1.val + tk.2.val) :=
        (Fintype.sum_prod_type' (fun (t : Fin A) (k : Fin B) => g (B * t.val + k.val))).symm
    _ = ∑ n : Fin (A * B), g n.val :=
        Fintype.sum_equiv finProdFinEquiv _ _ (fun tk => by
          rw [finProdFinEquiv_apply_val, add_comm])

/-- Terms that vanish from index `A` on may be dropped from a sum over `A + B` indices. -/
theorem sum_drop_tail {M : Type*} [AddCommMonoid M] (A B : ℕ) (g : ℕ → M) (h : ∀ n, A ≤ n → g n = 0) :
    ∑ n : Fin (A + B), g n.val = ∑ n : Fin A, g n.val := by
  rw [Fin.sum_univ_add]
  simp only [Fin.val_castAdd, Fin.val_natAdd]
  have hz : ∑ k : Fin B, g (A + k.val) = 0 :=
    Finset.sum_eq_zero (fun k _ => h (A + k.val) (Nat.le_add_right A k.val))
  rw [hz, add_zero]

/-! ### Selecting terms by a `1` or `0` factor -/

/-- Multiplying by `1` keeps a term and by `0` drops it, at the infinities too. -/
theorem sum_ite_mul {ι : Type*} [Fintype ι] (c : ι → Prop) [DecidablePred c] (f : ι → EReal) :
    ∑ k, (if c k then (1 : EReal) else 0) * f k = ∑ k, if c k then f k else 0 := by
  refine Finset.sum_congr rfl (fun k _ => ?_)
  by_cases hk : c k
  · rw [if_pos hk, if_pos hk, one_mul]
  · rw [if_neg hk, if_neg hk, zero_mul]

/-! ### Words and condition bits -/

/-- A 32-bit word is the word of a number below `1024` exactly when its signed reading is that number. -/
theorem word_eq_ofNat_iff (w : BitVec 32) (r : ℕ) (hr : r < 1024) :
    BitVec.ofNat 32 r = w ↔ w.toInt = (r : ℤ) := by
  constructor
  · rintro rfl
    rw [BitVec.toInt_eq_toNat_cond, BitVec.toNat_ofNat]
    have h : r % 2 ^ 32 = r := Nat.mod_eq_of_lt (by omega)
    rw [h]
    split_ifs with h2
    · rfl
    · omega
  · intro h
    apply BitVec.eq_of_toNat_eq
    rw [BitVec.toNat_ofNat]
    have hw : w.toNat < 2 ^ 32 := w.isLt
    rw [BitVec.toInt_eq_toNat_cond] at h
    split_ifs at h with h2
    · have : w.toNat = r := by exact_mod_cast h
      rw [this]; exact Nat.mod_eq_of_lt (by omega)
    · omega

/-- A condition bit, widened to a word and read as a signed number, is `1` when set and `0` when clear. -/
theorem bit_to_real (b : BitVec 1) :
    (((b.setWidth 32).toInt : ℝ) : EReal) = if b = 1#1 then 1 else 0 := by
  have h : (b.setWidth 32).toInt = if b = 1#1 then 1 else 0 := by
    revert b; decide
  rw [h]
  by_cases hb : b = 1#1
  · rw [if_pos hb, if_pos hb]; norm_num
  · rw [if_neg hb, if_neg hb]; norm_num

/-! ### The shift off zero -/

/-- The pattern both programs spell for `1e-6` (sign `0`, exponent field `107`, fraction `0x0637BD`) denotes the
    positive real `(2^23 + 407485) · 2^(107 - 127 - 23)`. -/
theorem eps_pos : ∃ e : ℝ, 0 < e ∧ Ideal.ofBits .f32 0x358637BD#32 = (e : EReal) := by
  refine ⟨(8796093 : ℝ) * (2 : ℝ) ^ (-43 : ℤ), by positivity, ?_⟩
  simp [Ideal.ofBits, Ideal.ieee, -EReal.coe_mul]

/-- The larger of a real and its negative, taken on the extended reals, is the real `max v (-v) = |v|`. -/
private theorem coe_max_neg (v : ℝ) : max (v : EReal) (-(v : EReal)) = ((max v (-v) : ℝ) : EReal) := by
  rw [← EReal.coe_neg]
  exact (EReal.coe_strictMono.monotone.map_max).symm

/-- At a real feature `v` the shifted value `|v| + ε` is a positive real. -/
theorem shifted_coe (v : ℝ) : ∃ a : ℝ, 0 < a ∧ shifted (v : EReal) = (a : EReal) := by
  obtain ⟨e, he, hE⟩ := eps_pos
  refine ⟨max v (-v) + e, ?_, ?_⟩
  · have h0 : 0 ≤ max v (-v) := by
      rw [← abs_eq_max_neg]; exact abs_nonneg v
    linarith
  · unfold shifted
    rw [hE, coe_max_neg, EReal.coe_add]

/-! ### `exp (p · log a)` is `a ^ p` at a positive base -/

/-- At a positive real base the spelling through the logarithm is the power, for every exponent. A real exponent is the
    definition of the real power; at `p = ±∞` the product `p · log a` is `±∞` or `0` by the sign of `log a`,
    which is the power's own split of the base against `1`. -/
theorem exp_mul_log_eq_pow (a : ℝ) (ha : 0 < a) (p : EReal) :
    Ideal.exp (p * Ideal.log (a : EReal)) = Ideal.pow (a : EReal) p := by
  have hlog : Ideal.log (a : EReal) = (Real.log a : EReal) := by
    rw [Ideal.log_coe, if_neg (not_le.mpr ha)]
  rw [hlog]
  have hna : ¬ a < 0 := not_lt.mpr ha.le
  have hz : ∀ q : EReal, Ideal.exp (q * ((0 : ℝ) : EReal)) = 1 := by
    intro q
    rw [EReal.coe_zero, mul_zero, ← EReal.coe_zero, Ideal.exp_coe, Real.exp_zero, EReal.coe_one]
  induction p using EReal.rec with
  | bot =>
    rw [Ideal.pow_coe_bot, if_neg hna]
    rcases lt_trichotomy a 1 with h | h | h
    · rw [EReal.bot_mul_coe_of_neg (Real.log_neg ha h), Ideal.exp_top, if_neg (not_lt.mpr h.le), if_neg h.ne]
    · rw [h, Real.log_one, hz, if_neg (lt_irrefl 1), if_pos rfl]
    · rw [EReal.bot_mul_coe_of_pos (Real.log_pos h), Ideal.exp_bot, if_pos h]
  | top =>
    rw [Ideal.pow_coe_top, if_neg hna]
    rcases lt_trichotomy a 1 with h | h | h
    · rw [EReal.top_mul_coe_of_neg (Real.log_neg ha h), Ideal.exp_bot, if_neg (not_lt.mpr h.le), if_neg h.ne]
    · rw [h, Real.log_one, hz, if_neg (lt_irrefl 1), if_pos rfl]
    · rw [EReal.top_mul_coe_of_pos (Real.log_pos h), Ideal.exp_top, if_pos h]
  | coe q =>
    rw [← EReal.coe_mul, Ideal.exp_coe, Ideal.pow_coe_coe]
    congr 1
    show Real.exp (q * Real.log a) = a ^ q
    rw [Real.rpow_def_of_pos ha, mul_comm]

/-! ### The two spellings of the segment sum agree -/

/-- At a real feature the term spelt through the logarithm is the power of the shifted value. -/
theorem powTerm_eq_pow (p : EReal) (v : ℝ) : powTerm p (v : EReal) = Ideal.pow (shifted (v : EReal)) p := by
  obtain ⟨a, ha, h⟩ := shifted_coe v
  unfold powTerm
  rw [h]
  exact exp_mul_log_eq_pow a ha p

/-- On real features the segment sum spelt with the power is the segment sum spelt through the logarithm. -/
theorem segSumPow_eq_segSum (x : (⟨2, ![500000, 128]⟩ : Shape).Idx → EReal)
    (seg : (⟨1, ![500000]⟩ : Shape).Idx → BitVec 32) (p : EReal) (r : Fin 1024) (d : Fin 128)
    (hx : ∀ i, ∃ v : ℝ, x i = (v : EReal)) : segSumPow x seg p r d = segSum x seg p r d := by
  unfold segSumPow segSum
  refine Finset.sum_congr rfl (fun n _ => ?_)
  obtain ⟨v, hv⟩ := hx (ix2 n d)
  rw [hv, powTerm_eq_pow]

end Cert.SegPow

end
-- ==== Proof.KSum.lean ====
/-
  The kernel's segment sums, entry by entry.

  Entry `(r, d)` of the running block after point `n` is the sum, over the rows of the points `0 … n`, of
  `mask · T`; after the last point the 163 blocks of 3072 rows are all 500736 rows of the padded arrays. The 736 padding
  rows carry the id 1024, which matches no row `r < 1024`, so their mask is `0` and they drop out; on the remaining rows
  the mask is the indicator of "the id, read signed, is `r`", and the sum is the specification's segment sum with the
  exponent of column `d`.
-/
import proofs.«429115_j46815143526536_1_alg».proof.Proof.KFinal
import proofs.«429115_j46815143526536_1_alg».proof.Proof.KStep
import proofs.«429115_j46815143526536_1_alg».proof.Proof.KHost
import proofs.«429115_j46815143526536_1_alg».proof.Proof.SegMath

noncomputable section

open scoped BigOperators
open Idealize.ShloMosaic Idealize.ShloMosaic.TcCoe Idealize.SL.Sem Idealize.ShloMosaic.ValueIdx

namespace Cert.KernelIdeal.KVal

open Cert.KernelIdeal Cert.KernelIdeal.Gen Cert.SegPow

variable (m : (ℓ : Loc nD τ sig) → Buf (Elt Ideal) ℓ)

/-- The mask is the indicator of "the id word, read signed, is the row number". -/
theorem hit_eq (w : BitVec 32) (r : Fin 1024) : hit w r = if w.toInt = (r.val : ℤ) then 1 else 0 := by
  unfold hit
  rw [bit_to_real]
  exact if_congr (IntOp.cmpi_eq.trans (word_eq_ofNat_iff w r.val r.isLt)) rfl rfl

/-- The id 1024 is no row. -/
theorem hit_pad (r : Fin 1024) : hit 1024#32 r = 0 := by
  rw [hit_eq, if_neg]
  have := r.isLt
  show ¬((1024#32 : BitVec 32).toInt = (r.val : ℤ))
  rw [show (1024#32 : BitVec 32).toInt = 1024 from by decide]
  omega

/-- Row `n` of the padded arrays' contribution to entry `(r, d)` (zero past the arrays' end). -/
def rowTerm (c : Dev nD) (r : Fin 1024) (d : Fin 128) (n : ℕ) : EReal :=
  if hn : n < 500736 then
    hit (segArr m c (ix2 0 ⟨n, hn⟩)) r * powTerm (expArr m c (ix2 0 d)) (featArr m c (ix2 ⟨n, hn⟩ d))
  else 0

/-- One point's rows, as `rowTerm`s. -/
theorem point_sum (c : Dev nD) (r : Fin 1024) (d : Fin 128) (t : Fin cfg0.N) :
    ∑ k : Fin 3072, hit (sblk m c t (ix2 0 k)) r * powTerm (pblk m c t (ix2 0 d)) (xblk m c t (ix2 k d))
      = ∑ k : Fin 3072, rowTerm m c r d (3072 * t.val + k.val) := by
  refine Finset.sum_congr rfl fun k _ => ?_
  rw [sblk_apply, xblk_apply, pblk_apply]
  unfold rowTerm
  rw [dif_pos (row_lt t k)]

theorem zeroBlock_apply (j : S1024x128.Idx) : (zeroBlock (F := Ideal)) j = 0 := by
  show shapeCast S1024x128 (broadcast S1024x128 (Scalar.ofBits (F := Ideal) .f32 0x00000000#32)) shapeCasts_S1024x128_S1024x128 j = 0
  rw [shapeCast_self]
  exact Ideal.ofBits_zero_f32

/-- Entry `(r, d)` of the running block after point `n`: the rows of the points `0 … n`. -/
theorem acc_apply (c : Dev nD) (r : Fin 1024) (d : Fin 128) : ∀ (n : ℕ) (h : n < cfg0.N),
    acc m c n h (ix2 r d) = ∑ t ∈ Finset.range (n + 1), ∑ k : Fin 3072, rowTerm m c r d (3072 * t + k.val)
  | 0, h => by
    show step (xblk m c ⟨0, h⟩) (sblk m c ⟨0, h⟩) (pblk m c ⟨0, h⟩) zeroBlock (ix2 r d) = _
    rw [step_apply, zeroBlock_apply, zero_add, point_sum, Finset.sum_range_one]
  | n + 1, h => by
    show step (xblk m c ⟨n + 1, h⟩) (sblk m c ⟨n + 1, h⟩) (pblk m c ⟨n + 1, h⟩) (acc m c n (Nat.lt_of_succ_lt h)) (ix2 r d) = _
    rw [step_apply, acc_apply c r d n, point_sum]
    exact (Finset.sum_range_succ (fun t => ∑ k : Fin 3072, rowTerm m c r d (3072 * t + k.val)) (n + 1)).symm

/-- A padding row contributes nothing. -/
theorem rowTerm_tail (c : Dev nD) (r : Fin 1024) (d : Fin 128) (n : ℕ) (hn : 500000 ≤ n) : rowTerm m c r d n = 0 := by
  unfold rowTerm
  split
  · rename_i h
    rw [segArr_outside m c ⟨n, h⟩ hn, hit_pad, zero_mul]
  · rfl

/-- A row of the arguments contributes its power where its id is the row number. -/
theorem rowTerm_arg (c : Dev nD) (r : Fin 1024) (d : Fin 128) (n : Fin 500000) :
    rowTerm m c r d n.val
      = if (m ((c : Thread nD τ).loc main_arg1) (ix1 n)).toInt = (r.val : ℤ)
          then powTerm (expArr m c (ix2 0 d)) (m ((c : Thread nD τ).loc main_arg0) (ix2 n d)) else 0 := by
  unfold rowTerm
  rw [dif_pos (show n.val < 500736 by have := n.isLt; omega), segArr_inside, featArr_inside, hit_eq]
  split
  · exact one_mul _
  · exact zero_mul _

/-- THE KERNEL'S SEGMENT SUMS: entry `(r, d)` of the result array is the specification's segment sum of column `d` with
    the exponent the exponent row holds at `d`. -/
theorem result_apply (c : Dev nD) (r : Fin 1024) (d : Fin 128) :
    result m c (ix2 r d)
      = segSum (m ((c : Thread nD τ).loc main_arg0)) (m ((c : Thread nD τ).loc main_arg1)) (expArr m c (ix2 0 d)) r d := by
  show acc m c 162 lastLt (ix2 r d) = _
  rw [acc_apply, Finset.sum_range (fun t => ∑ k : Fin 3072, rowTerm m c r d (3072 * t + k.val)),
    sum_blocks 163 3072 (rowTerm m c r d)]
  show ∑ n : Fin (500000 + 736), rowTerm m c r d n.val = _
  rw [sum_drop_tail 500000 736 (rowTerm m c r d) (rowTerm_tail m c r d)]
  unfold segSum
  exact Finset.sum_congr rfl fun n _ => rowTerm_arg m c r d n

end Cert.KernelIdeal.KVal

end
-- ==== Proof.RefTail.lean ====
/-
  The part both programs share after the segment sums.

  From the two halves `sp`, `sn` of the segment sums and the per-segment node counts `cnt`, both programs compute
  `exp (log sp / p₀) / cnt ^ q` and `sn ^ (1 / p₁) / cnt ^ q`, join the two halves, multiply by the transposed weight
  matrix and add the bias. `finish` is that computation as ONE function of `sp`, `sn`, `cnt` and the remaining
  arguments, written with the reference's own stages for everything that does not depend on the three; the reference's
  result is `finish` of its two row scatters and its count scatter.
-/
import proofs.«429115_j46815143526536_1_alg».proof.Proof.Gen.ReferenceIdeal.Read

noncomputable section

namespace Cert.ReferenceIdeal.RefTail

open Cert.ReferenceIdeal Cert.ReferenceIdeal.Gen Cert.ReferenceIdeal.Read Idealize.ShloMosaic

variable {F : FTy → Type} [FloatOps F]

/-- The normalisation of the two halves, the join, the projection and the bias. -/
def finish (sp sn : FVec F S1024x64 .f32) (cnt : FVec F S1024 .f32) (x2 x3 : FVec F S2 .f32) (x4 : FVec F S128x128 .f32)
    (x5 : FVec F S128 .f32) : FVec F S1024x128 .f32 :=
  addf
    (Host.dotGeneral dot_S1024x128_S128x128_S1024x128_1_0_0_1_n_n none
      (concatenate S1024x128 1
        [⟨S1024x64, Host.divf (Host.exp (Host.divf (Host.log sp) (val_main_v29 (F := F) x2)))
            (broadcastInDim S1024x64 ![0, 1] bcast_S1024x1_S1024x64_0_1
              (Host.powf (broadcastInDim S1024x1 ![0] bcast_S1024_S1024x1_0 cnt) (val_main_v34 (F := F) x3)))⟩,
         ⟨S1024x64, Host.divf (Host.powf sn (val_main_v49 (F := F) x2))
            (broadcastInDim S1024x64 ![0, 1] bcast_S1024x1_S1024x64_0_1
              (Host.powf (broadcastInDim S1024x1 ![0] bcast_S1024_S1024x1_0 cnt) (val_main_v53 (F := F) x3)))⟩]
        concatenates_S1024x64_S1024x64_S1024x128_d1)
      (val_main_v58 (F := F) x4))
    (val_main_v61 (F := F) x5)

/-- The reference's result is `finish` of its own segment sums and counts. -/
theorem ref_eq_finish (x0 : FVec F S500000x128 .f32) (x1 : IVec S500000 32) (x2 x3 : FVec F S2 .f32)
    (x4 : FVec F S128x128 .f32) (x5 : FVec F S128 .f32) :
    val_main_v62 (F := F) x0 x1 x2 x3 x4 x5
      = finish (val_main_v25 (F := F) x0 x1 x2) (val_main_v45 (F := F) x0 x1 x2) (val_main_v11 (F := F) x1) x2 x3 x4 x5 := rfl

end Cert.ReferenceIdeal.RefTail

end
-- ==== Proof.KTail.lean ====
/-
  The kernel program's run, with its result named.

  After the region the host slices the result array into its two halves, counts the nodes of each segment (scattering
  ones at the ids, a negative id first wrapped around by 1024 as array indexing does), and applies the normalisation,
  the join, the projection and the bias: the computation `finish` that the reference applies to its own segment sums.
  So the program ends with its result at `finish` of the two halves of the kernel's result array, the wrapped counts and
  the remaining arguments, and with its arguments unchanged.
-/
import proofs.«429115_j46815143526536_1_alg».proof.Proof.KFinal
import proofs.«429115_j46815143526536_1_alg».proof.Proof.KHost
import proofs.«429115_j46815143526536_1_alg».proof.Proof.RefTail
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.KVal

open Cert.KernelIdeal Cert.KernelIdeal.Gen

variable {F : FTy → Type} [FloatOps F]
variable (m : (ℓ : Loc nD τ sig) → Buf (Elt F) ℓ) (ρ : Dev nD → PrngReg)

/-- The ids with a negative one wrapped around by 1024, as indexing an array of 1024 entries wraps it. -/
abbrev wrapped (a1 : IVec S500000 32) : IVec S500000 32 :=
  select (cmpi .slt a1 (broadcastInDim S500000 ![] bcast_S_S500000 (constantI S_ 32 0#32)))
    (addi a1 (broadcastInDim S500000 ![] bcast_S_S500000 (constantI S_ 32 1024#32))) a1

/-- The kernel program's node counts: ones scattered at the wrapped ids. -/
abbrev countsK (a1 : IVec S500000 32) : FVec F S1024 .f32 :=
  Host.scatterAdd scatter_S1024_S500000x1_S500000_n_0_0_1 (broadcastInDim S1024 ![] bcast_S_S1024 (constant S_ .f32 0x00000000#32))
    (broadcastInDim S500000x1 ![0] bcast_S500000_S500000x1_0 (wrapped a1))
    (broadcastInDim S500000 ![] bcast_S_S500000 (constant S_ .f32 0x3F800000#32))

/-- The kernel program's result, as a function of the kernel's result array and the arguments. -/
abbrev outK (c : Dev nD) : FVec F S1024x128 .f32 :=
  Cert.ReferenceIdeal.RefTail.finish (F := F)
    (extractStridedSlice S1024x64 ![0, 0] (result m c) slices_S1024x128_S1024x64_0_0)
    (extractStridedSlice S1024x64 ![0, 64] (result m c) slices_S1024x128_S1024x64_0_64)
    (countsK (m ((c : Thread nD τ).loc main_arg1)))
    (m ((c : Thread nD τ).loc main_arg2)) (m ((c : Thread nD τ).loc main_arg3))
    (m ((c : Thread nD τ).loc main_arg4)) (m ((c : Thread nD τ).loc main_arg5))

/-- The lines after the region, as one function of the buffers they read: the kernel's result array `s`, the two exponent
    scalars, the `tanh` vector, the ids, the weights and the bias. -/
def tailK (s : FVec F S1024x128 .f32) (e0 e1 : FVec F S_ .f32) (q : FVec F S2 .f32) (a1 : IVec S500000 32)
    (a4 : FVec F S128x128 .f32) (a5 : FVec F S128 .f32) : FVec F S1024x128 .f32 :=
  addf
    (Host.dotGeneral dot_S1024x128_S128x128_S1024x128_1_0_0_1_n_n none
      (concatenate S1024x128 1
        [⟨S1024x64, Host.divf
            (Host.exp (Host.divf (Host.log (extractStridedSlice S1024x64 ![0, 0] s slices_S1024x128_S1024x64_0_0))
              (broadcastInDim S1024x64 ![] bcast_S_S1024x64 e0)))
            (broadcastInDim S1024x64 ![0, 1] bcast_S1024x1_S1024x64_0_1
              (Host.powf (broadcastInDim S1024x1 ![0] bcast_S1024_S1024x1_0 (countsK a1))
                (broadcastInDim S1024x1 ![] bcast_S_S1024x1 (shapeCast S_ (extractStridedSlice S1 ![0] q slices_S2_S1_0) shapeCasts_S1_S_))))⟩,
         ⟨S1024x64, Host.divf
            (Host.powf (extractStridedSlice S1024x64 ![0, 64] s slices_S1024x128_S1024x64_0_64)
              (broadcastInDim S1024x64 ![] bcast_S_S1024x64 (Host.divf (constant S_ .f32 0x3F800000#32) e1)))
            (broadcastInDim S1024x64 ![0, 1] bcast_S1024x1_S1024x64_0_1
              (Host.powf (broadcastInDim S1024x1 ![0] bcast_S1024_S1024x1_0 (countsK a1))
                (broadcastInDim S1024x1 ![] bcast_S_S1024x1 (shapeCast S_ (extractStridedSlice S1 ![0] q slices_S2_S1_0) shapeCasts_S1_S_))))⟩]
        concatenates_S1024x64_S1024x64_S1024x128_d1)
      (transpose S128x128 [1, 0] a4 transposes_S128x128_S128x128_1_0))
    (broadcastInDim S1024x128 ![0, 1] bcast_S1x128_S1024x128_0_1 (broadcastInDim S1x128 ![1] bcast_S128_S1x128_1 a5))

set_option maxHeartbeats 8000000 in
set_option maxRecDepth 8192 in
/-- What the lines after the region leave in the result buffer. -/
theorem tail_out (c : Dev nD) :
    Pipeline.afterTail₀ cfgs (dats m) 0 (V0 m) [hostOps1] c main_v55 = outK m c := by
  unfold Pipeline.afterTail₀
  generalize hW : Pipeline.withArrays (cfgs 0).spec c (V0 m c) (fun w => (dats m 0 c).arrAt w (cfgs 0).N) = W
  have h18 : W (Proc.devRef .tc main_v18) = result m c := by
    rw [← hW]; exact (Pipeline.withArrays_arr spec0 launch0.win.arr_inj c _ _ 3).trans (final_out m c)
  have hne : ∀ b : Ref sig .tc, (∀ w, Pipeline.arrRef spec0 w ≠ b) → W (Proc.devRef .tc b) = V m c b := fun b hb => by
    rw [← hW]; exact Pipeline.withArrays_of_ne _ c _ _ b hb
  have h9 : W (Proc.devRef .tc main_v9) = exp0 m c := (hne main_v9 (by decide)).trans (V_exp0 m c)
  have h11 : W (Proc.devRef .tc main_v11) = exp1 m c := (hne main_v11 (by decide)).trans (V_exp1 m c)
  have h7 : W (Proc.devRef .tc main_v7) = Cert.ReferenceIdeal.Read.val_main_v7 (F := F) (m ((c : Thread nD τ).loc main_arg3)) :=
    (hne main_v7 (by decide)).trans (V_tanh m c)
  have ha1 : W (Proc.devRef .tc main_arg1) = m ((c : Thread nD τ).loc main_arg1) := (hne main_arg1 (by decide)).trans (V_main_arg1 m c)
  have ha4 : W (Proc.devRef .tc main_arg4) = m ((c : Thread nD τ).loc main_arg4) := (hne main_arg4 (by decide)).trans (V_main_arg4 m c)
  have ha5 : W (Proc.devRef .tc main_arg5) = m ((c : Thread nD τ).loc main_arg5) := (hne main_arg5 (by decide)).trans (V_main_arg5 m c)
  simp only [hostOps1, List.flatten_cons, List.flatten_nil, List.append_nil]
  have key : ∀ W : Valuation τ sig (Elt F), StableHlo.after (hostOps1 (F := F)) W (Proc.devRef .tc main_v55)
      = tailK (W (Proc.devRef .tc main_v18)) (W (Proc.devRef .tc main_v9)) (W (Proc.devRef .tc main_v11))
          (W (Proc.devRef .tc main_v7)) (W (Proc.devRef .tc main_arg1)) (W (Proc.devRef .tc main_arg4))
          (W (Proc.devRef .tc main_arg5)) := by
    intro W
    simp only [hostOps1]
    after_results_simp <;> rfl
  simp only [hostOps1] at key
  rw [key W, h18, h9, h11, h7, ha1, ha4, ha5]
  rfl

/-- THE KERNEL PROGRAM'S RUN: every weakly fair execution terminates with the result at `outK` and the arguments unchanged. -/
theorem run : θ_run defs (onTc (τ := τ) (main (F := F))) ⟨m, fun _ => 0, ρ⟩ fun r => ∀ c : Dev nD,
      r.2.mem ((c.tc : Thread nD τ).loc main_v55) = outK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v55 (Pipeline.mem_restRefs_of main_v55 (by decide) (by decide))).trans (tail_out m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KVal

end
-- ==== Proof.LibScatterRows.lean ====
/-
  A float scatter-add of ROWS, read at an index, at the ideal values.

  The scatter `operand[idx[b, 0], :] += updates[b, :]` — operand `[N, W]`, scatter indices `[B, 1]`, updates `[B, W]`,
  update window axis `[1]`, inserted window axis `[0]`, scatter-dims-to-operand-dims `[0]`, index vector axis `1` — is what
  `jax.ops.segment_sum` and `x.at[idx].add(v)` of a rank-2 array lower to. Update element `(b, n')` lands on operand
  element `(idx[b, 0], n')` when the index, read signed, is a row of the operand, and is dropped otherwise. So at the
  extended reals element `(c, n)` of the result is the operand's plus the sum over ALL rows `b` of the updates of
  `updates[b, n]` where `idx[b, 0] = c` and of zero elsewhere: a masked sum over the batch, the form a kernel that
  multiplies by a `0/1` mask and contracts the batch axis computes.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

variable {N B W w : Nat}

/-- The dimension numbers of a row scatter over operand `[N, W]`, scatter indices `[B, 1]` and updates `[B, W]`; their
    conditions `wf` are decided on a program's literal shapes. -/
abbrev rowDims (N B W : Nat) (wf : ScatterDims.WF ⟨2, ![N, W]⟩ ⟨2, ![B, 1]⟩ ⟨2, ![B, W]⟩ [1] [0] [0] 1) :
    ScatterDims ⟨2, ![N, W]⟩ ⟨2, ![B, 1]⟩ ⟨2, ![B, W]⟩ where
  updateWindowDims := [1]
  insertedWindowDims := [0]
  scatterDimsToOperandDims := [0]
  indexVectorDim := 1
  wf := wf

variable (wf : ScatterDims.WF ⟨2, ![N, W]⟩ ⟨2, ![B, 1]⟩ ⟨2, ![B, W]⟩ [1] [0] [0] 1)

/-- The scatter-indices index `[b, 0]` that update row `b` reads its start from. -/
abbrev rowIdx (b : Fin B) : (⟨2, ![B, 1]⟩ : Shape).Idx := ix2 b ⟨0, Nat.one_pos⟩

/-- On the row axis the window starts at the scatter index of the update's row, read signed. -/
theorem start_row (j : (⟨2, ![B, W]⟩ : Shape).Idx) (idx : IVec ⟨2, ![B, 1]⟩ w) :
    (rowDims N B W wf).start j idx 0 = (idx (rowIdx (j 0))).toInt := by
  unfold ScatterDims.start
  rw [dif_pos (show (0 : Fin 2) ∈ (rowDims N B W wf).scatterDimsToOperandDims from List.mem_singleton.mpr rfl)]
  have hsi : (rowDims N B W wf).siIdx j ⟨List.idxOf (0 : Fin 2) (rowDims N B W wf).scatterDimsToOperandDims,
      List.idxOf_lt_length_iff.2 (List.mem_singleton.mpr rfl)⟩ = rowIdx (j 0) := by
    funext b; refine Fin.ext ?_
    match b with
    | ⟨0, _⟩ => rfl
    | ⟨1, _⟩ => rfl
  rw [hsi]
  rfl

/-- On the column axis, which the index map does not name, the window starts at zero. -/
theorem start_col (j : (⟨2, ![B, W]⟩ : Shape).Idx) (idx : IVec ⟨2, ![B, 1]⟩ w) :
    (rowDims N B W wf).start j idx 1 = 0 := by
  unfold ScatterDims.start
  rw [dif_neg (show ¬ (1 : Fin 2) ∈ ([0] : List (Fin 2)) by decide)]

/-- The row axis is inserted: no window coordinate on it. -/
theorem window_row (j : (⟨2, ![B, W]⟩ : Shape).Idx) : (rowDims N B W wf).window j 0 = 0 := by
  unfold ScatterDims.window
  have h : ¬ (0 : Fin 2) ∈ (rowDims N B W wf).sKept := by
    show ¬ (0 : Fin 2) ∈ (List.finRange 2).filter (· ∉ ([0] : List (Fin 2)))
    decide
  rw [dif_neg h]

/-- The column axis carries the update's column. -/
theorem window_col (j : (⟨2, ![B, W]⟩ : Shape).Idx) : (rowDims N B W wf).window j 1 = (j 1).val := by
  unfold ScatterDims.window
  have h : (1 : Fin 2) ∈ (rowDims N B W wf).sKept := by
    show (1 : Fin 2) ∈ (List.finRange 2).filter (· ∉ ([0] : List (Fin 2)))
    decide
  rw [dif_pos h]
  rfl

/-- WHERE AN UPDATE LANDS: update element `j = (b, n')` lands on operand element `i = (c, n)` exactly when the scatter
    index of row `b`, read signed, is `c` and the columns agree. -/
theorem resultIdx?_eq_some_iff (j : (⟨2, ![B, W]⟩ : Shape).Idx) (idx : IVec ⟨2, ![B, 1]⟩ w) (i : (⟨2, ![N, W]⟩ : Shape).Idx) :
    (rowDims N B W wf).resultIdx? j idx = some i ↔ (idx (rowIdx (j 0))).toInt = ((i 0).val : Int) ∧ (j 1).val = (i 1).val := by
  have hi0 : (i 0).val < N := (i 0).isLt
  have hi1 : (i 1).val < W := (i 1).isLt
  have hj1 : (j 1).val < W := (j 1).isLt
  unfold ScatterDims.resultIdx?
  split
  · rename_i h
    constructor
    · intro he
      have he' := Option.some.inj he
      have h0 := congrArg (fun f => (f 0).val) he'
      have h1 := congrArg (fun f => (f 1).val) he'
      have hb0 := h 0
      have hb1 := h 1
      simp only [start_row, start_col, window_row, window_col] at h0 h1 hb0 hb1
      constructor <;> omega
    · rintro ⟨h0, h1⟩
      congr 1
      funext a
      refine Fin.ext ?_
      match a with
      | ⟨0, _⟩ =>
        show ((rowDims N B W wf).start j idx 0 + ((rowDims N B W wf).window j 0 : Int)).toNat = (i 0).val
        rw [start_row, window_row]; omega
      | ⟨1, _⟩ =>
        show ((rowDims N B W wf).start j idx 1 + ((rowDims N B W wf).window j 1 : Int)).toNat = (i 1).val
        rw [start_col, window_col]; omega
  · rename_i h
    constructor
    · intro he; exact absurd he (by simp)
    · rintro ⟨h0, h1⟩
      exfalso; apply h
      intro a
      match a with
      | ⟨0, _⟩ =>
        show 0 ≤ (rowDims N B W wf).start j idx 0 + ((rowDims N B W wf).window j 0 : Int)
          ∧ (rowDims N B W wf).start j idx 0 + ((rowDims N B W wf).window j 0 : Int) < (N : Int)
        rw [start_row, window_row]; omega
      | ⟨1, _⟩ =>
        show 0 ≤ (rowDims N B W wf).start j idx 1 + ((rowDims N B W wf).window j 1 : Int)
          ∧ (rowDims N B W wf).start j idx 1 + ((rowDims N B W wf).window j 1 : Int) < (W : Int)
        rw [start_col, window_col]; omega

/-- THE SCATTER-ADD OF ROWS READ AT `(c, n)`, at the ideal values: the operand there plus, over every update row `b`,
    the update `(b, n)` where row `b`'s scatter index is `c` and zero where it is not. An index outside `[0, N)` equals
    no `c`, so its row contributes nothing. -/
theorem hostScatterAdd_rows_apply (x : (⟨2, ![N, W]⟩ : Shape).Idx → EReal) (idx : IVec ⟨2, ![B, 1]⟩ w)
    (upd : (⟨2, ![B, W]⟩ : Shape).Idx → EReal) (c : Fin N) (n : Fin W) :
    Ideal.hostScatterAdd (rowDims N B W wf) x idx upd (ix2 c n)
      = x (ix2 c n) + ∑ b : Fin B, if (idx (rowIdx b)).toInt = (c.val : Int) then upd (ix2 b n) else 0 := by
  unfold Ideal.hostScatterAdd
  congr 1
  rw [Finset.sum_filter, sum_idx2]
  refine Finset.sum_congr rfl fun b _ => ?_
  rw [Finset.sum_eq_single n]
  · simp only [resultIdx?_eq_some_iff]
    show (if (idx (rowIdx b)).toInt = (c.val : Int) ∧ n.val = n.val then upd (ix2 b n) else 0) = _
    simp only [and_true]
  · intro n' _ hne
    rw [if_neg]
    rw [resultIdx?_eq_some_iff]
    rintro ⟨_, h1⟩
    exact hne (Fin.ext h1)
  · intro h; exact absurd (Finset.mem_univ n) h

end Idealize.ShloMosaic.ScatterRows

end
-- ==== Proof.RefSeg.lean ====
/-
  The reference program's two segment sums, read at an index.

  The reference adds, for each node, a power of each shifted feature into the row its segment id names: columns
  0 … 63 carry exp (p₀ · log (|v| + ε)), columns 64 … 127 carry (|v| + ε) ^ p₁, each accumulated into an all-zero
  1024 × 64 array by a scatter-add of rows. At the extended reals a scatter-add of rows is an exact masked sum over the
  nodes, so entry (r, d) of the first accumulation is the segment sum of column d with exponent p₀, and entry (r, d) of
  the second is the directly-spelt segment sum of column 64 + d with exponent p₁.
-/
import proofs.«429115_j46815143526536_1_alg».proof.Proof.Gen.ReferenceIdeal.Read
import proofs.«429115_j46815143526536_1_alg».proof.Proof.LibScatterRows
import proofs.«429115_j46815143526536_1_alg».proof.Proof.Spec
import Idealize.ShloMosaic.Lib.ValueIdx
import Idealize.ShloMosaic.Lib.Pipeline.Value

noncomputable section

namespace Cert.ReferenceIdeal.RefSeg

open Cert.ReferenceIdeal Cert.ReferenceIdeal.Gen Cert.ReferenceIdeal.Read Idealize.ShloMosaic Idealize.ShloMosaic.ValueIdx
  Idealize.ShloMosaic.ScatterRows Cert.SegPow
open scoped BigOperators

variable (x0 : (⟨S500000x128, .f32⟩ : BufTy).Contents (Elt Ideal)) (x1 : (⟨S500000, .i32⟩ : BufTy).Contents (Elt Ideal))
  (x2 : (⟨S2, .f32⟩ : BufTy).Contents (Elt Ideal))

/-- The printed dimension numbers are those of a row scatter over operand [1024, 64], scatter indices [500000, 1] and
    updates [500000, 64]: the four lists agree and the conditions are a proposition. -/
theorem dims_eq : scatter_S1024x64_S500000x1_S500000x64_1_0_0_1
    = rowDims 1024 500000 64 Facts₀.scatter_S1024x64_S500000x1_S500000x64_1_0_0_1_wf := rfl

/-- At the extended reals a float scatter-add is the exact sum, whatever the dimension numbers. -/
theorem scatterAdd_ideal {s si u : Shape} {φ : FTy} {w : Nat} (dm : ScatterDims s si u) (x : FVec Ideal s φ) (idx : IVec si w)
    (upd : FVec Ideal u φ) : Host.scatterAdd dm x idx upd = Ideal.hostScatterAdd dm x idx upd := rfl

/-! ## The operands both accumulations share -/

/-- The shifted feature |v| + ε of the reference, read at an index. -/
theorem shifted_apply (i : S500000x128.Idx) : val_main_v15 (F := Ideal) x0 i = shifted (x0 i) := by
  rw [val_main_v15_apply, val_main_v14_apply, val_main_v13_apply, val_main_cst_3_apply]
  unfold shifted
  rw [Ideal.addf_def, Ideal.hostAbsf_def, Ideal.absf_def]
  rfl

/-! ## The first accumulation: columns 0 … 63, the power spelt through the logarithm -/

/-- The scatter-index array is the id vector laid out as a column: its entry (n, 0) is the id of node n. -/
theorem idsPos_apply (n : Fin 500000) : val_main_v24 (F := Ideal) x1 (rowIdx n) = x1 (ix1 n) := by
  rw [val_main_v24_apply]
  have h : idx_main_v24 (rowIdx n) = ix1 n := by
    funext a
    match a with
    | ⟨0, _⟩ => rfl
  rw [h]

/-- The accumulation starts from zero. -/
theorem zerosPos_apply (i : S1024x64.Idx) : val_main_v23 (F := Ideal) i = 0 := by
  rw [val_main_v23_apply, val_main_cst_4_apply]
  exact Ideal.ofBits_zero_f32

/-- The update at (n, d): exp (p₀ · log (|x[n, d]| + ε)). -/
theorem updPos_apply (n : Fin 500000) (d : Fin 64) :
    val_main_v22 (F := Ideal) x0 x2 (ix2 n d)
      = powTerm (val_main_v17 (F := Ideal) x2 ix0) (x0 (ix2 n ⟨d.val, by omega⟩)) := by
  rw [val_main_v22_apply, val_main_v21_apply, val_main_v20_apply, val_main_v19_apply, val_main_v18_apply, shifted_apply]
  have h1 : idx_main_v18 (ix2 n d) = ix2 n ⟨d.val, by omega⟩ := by
    funext a
    match a with
    | ⟨0, _⟩ => rfl
    | ⟨1, _⟩ => rfl
  have h2 : idx_main_v20 (ix2 n d) = ix0 := rfl
  rw [h1, h2]
  unfold powTerm
  rw [Ideal.hostUnary_exp_def, Ideal.mulf_def, Ideal.hostUnary_log_def]

/-- ENTRY (r, d) OF THE FIRST ACCUMULATION is the segment sum of column d with exponent p₀. -/
theorem segPos_apply (r : Fin 1024) (d : Fin 64) :
    val_main_v25 (F := Ideal) x0 x1 x2 (ix2 r d)
      = segSum x0 x1 (val_main_v17 (F := Ideal) x2 ix0) r ⟨d.val, by omega⟩ := by
  unfold val_main_v25
  rw [scatterAdd_ideal, dims_eq, hostScatterAdd_rows_apply, zerosPos_apply, zero_add]
  unfold segSum
  refine Finset.sum_congr rfl fun n _ => ?_
  rw [idsPos_apply, updPos_apply]

/-! ## The second accumulation: columns 64 … 127, the power spelt directly -/

/-- The scatter-index array of the second accumulation is the same column of ids. -/
theorem idsNeg_apply (n : Fin 500000) : val_main_v44 (F := Ideal) x1 (rowIdx n) = x1 (ix1 n) := by
  rw [val_main_v44_apply]
  have h : idx_main_v44 (rowIdx n) = ix1 n := by
    funext a
    match a with
    | ⟨0, _⟩ => rfl
  rw [h]

/-- The second accumulation starts from zero too. -/
theorem zerosNeg_apply (i : S1024x64.Idx) : val_main_v43 (F := Ideal) i = 0 := by
  rw [val_main_v43_apply, val_main_cst_5_apply]
  exact Ideal.ofBits_zero_f32

/-- The update at (n, d): (|x[n, 64 + d]| + ε) ^ p₁. -/
theorem updNeg_apply (n : Fin 500000) (d : Fin 64) :
    val_main_v42 (F := Ideal) x0 x2 (ix2 n d)
      = Ideal.pow (shifted (x0 (ix2 n ⟨64 + d.val, by omega⟩))) (val_main_v40 (F := Ideal) x2 ix0) := by
  rw [val_main_v42_apply, val_main_v41_apply, val_main_v38_apply, shifted_apply]
  have h1 : idx_main_v38 (ix2 n d) = ix2 n ⟨64 + d.val, by omega⟩ := by
    funext a
    match a with
    | ⟨0, _⟩ => rfl
    | ⟨1, _⟩ => rfl
  have h2 : idx_main_v41 (ix2 n d) = ix0 := rfl
  rw [h1, h2, Ideal.hostPowf_def]

/-- ENTRY (r, d) OF THE SECOND ACCUMULATION is the directly-spelt segment sum of column 64 + d with exponent p₁. -/
theorem segNeg_apply (r : Fin 1024) (d : Fin 64) :
    val_main_v45 (F := Ideal) x0 x1 x2 (ix2 r d)
      = segSumPow x0 x1 (val_main_v40 (F := Ideal) x2 ix0) r ⟨64 + d.val, by omega⟩ := by
  unfold val_main_v45
  rw [scatterAdd_ideal, dims_eq, hostScatterAdd_rows_apply, zerosNeg_apply, zero_add]
  unfold segSumPow
  refine Finset.sum_congr rfl fun n _ => ?_
  rw [idsNeg_apply, updNeg_apply]

end Cert.ReferenceIdeal.RefSeg

end
-- ==== Proof.PreDecode.lean ====
/-
  The precondition of the claim, decoded into statements about the inputs.

  The printed predicate is a conjunction of six universally quantified facts, each folded to one bit by a
  reduction with "and" from the constant 1, and the six bits joined by "and": every entry of each of the five
  float inputs has absolute value below +∞, and every entry of the integer input is at least 0 (signed).
  When the whole predicate is 1, each of the six bits is 1, and a reduction by "and" that is 1 had a 1 at every
  element.  Read at one element: an extended real whose absolute value max(v, −v) lies below ⊤ is neither ⊤ nor ⊥,
  so it is a real number; and a signed comparison "≥ 0" that is 1 says that the word read as a signed integer is
  not negative.

  Last, the wrap-around of negative indices, where(y < 0, y + 1024, y), leaves an index vector with no negative
  entry as it is: at each entry the test "y < 0" is the bit 0, and a selection on the bit 0 is its last operand.
-/
import proofs.«429115_j46815143526536_1_alg».proof.Proof.Gen.Pre_finite_inputs
import Idealize.ShloMosaic.Lib.ReduceAll
import Idealize.ShloMosaic.Lib.ValueIdx
import Idealize.ShloMosaic.Lib.Affine

noncomputable section

namespace Cert.PreDecode

open Idealize.ShloMosaic Idealize.ShloMosaic.ValueIdx Cert.Pre_finite_inputs

/-- The scalar shape has one index. -/
instance subsingleton_scalar_idx : Subsingleton S_.Idx := ⟨fun a b => funext fun d => d.elim0⟩

variable (x0 : FVec Ideal S500000x128 .f32) (x1 : IVec S500000 32) (x2 x3 : FVec Ideal S2 .f32)
  (x4 : FVec Ideal S128x128 .f32) (x5 : FVec Ideal S128 .f32)

/-- The first and the last of the six conjuncts: the bit of "every |x| < +∞" and the bit of "every index ≥ 0". -/
theorem conj_x_seg (h : Cert.Pre_finite_inputs.fn (F := Ideal) x0 x1 x2 x3 x4 x5 = fun _ => 1#1) :
    Host.reduce IntOp.andi
        (cmpf .olt (Host.absf x0) (broadcastInDim S500000x128 ![] Facts.bcast_S_S500000x128 (constant S_ .f32 0x7F800000#32)))
        (constantI S_ 1 1#1) Facts.reducesTo_S500000x128_S_d0_1 Facts.h_S_ ix0 = 1#1
    ∧ Host.reduce IntOp.andi
        (cmpi .sge x1 (broadcastInDim S500000 ![] Facts.bcast_S_S500000 (constantI S_ 32 0#32)))
        (constantI S_ 1 1#1) Facts.reducesTo_S500000_S_d0 Facts.h_S_ ix0 = 1#1 := by
  have e := congrFun h ix0
  simp only [fn, fn_part1, andi, IntOp.andi_eq_one] at e
  exact ⟨e.1.1.1.1.1, e.2⟩

/-- The pattern 0x7F800000 denotes +∞. -/
theorem ofBits_inf : Ideal.ofBits .f32 0x7F800000#32 = (⊤ : EReal) := by simp [Ideal.ofBits, Ideal.ieee]

/-- An extended real whose absolute value max(v, −v) lies below ⊤ is a real number. -/
theorem real_of_abs_lt_top (v : EReal) (hv : max v (-v) < ⊤) : ∃ r : ℝ, v = (r : EReal) := by
  rw [max_lt_iff] at hv
  induction v using EReal.rec with
  | bot => exact absurd hv.2 (by simp)
  | coe r => exact ⟨r, rfl⟩
  | top => exact absurd hv.1 (lt_irrefl _)

/-- Every entry of the first float input is a real number. -/
theorem x_real (h : Cert.Pre_finite_inputs.fn (F := Ideal) x0 x1 x2 x3 x4 x5 = fun _ => 1#1) :
    ∀ i : S500000x128.Idx, ∃ v : ℝ, x0 i = (v : EReal) := by
  intro i
  have hb := Host.reduce_andi_all _ _ _ _ ix0 (conj_x_seg x0 x1 x2 x3 x4 x5 h).1 i
  have hc : Ideal.cmp .olt (max (x0 i) (-(x0 i))) (Ideal.ofBits .f32 0x7F800000#32) = 1#1 := hb
  rw [ofBits_inf] at hc
  refine real_of_abs_lt_top (x0 i) ?_
  by_contra hn
  have : Ideal.cmp .olt (max (x0 i) (-(x0 i))) ⊤ = 0#1 := by
    unfold Ideal.cmp
    simp [hn]
  rw [this] at hc
  exact absurd hc (by decide)

/-- Every entry of the integer input, read signed, is at least 0. -/
theorem seg_nonneg (h : Cert.Pre_finite_inputs.fn (F := Ideal) x0 x1 x2 x3 x4 x5 = fun _ => 1#1) :
    ∀ i : S500000.Idx, 0 ≤ (x1 i).toInt := by
  intro i
  have hb := Host.reduce_andi_all _ _ _ _ ix0 (conj_x_seg x0 x1 x2 x3 x4 x5 h).2 i
  have hc : IntOp.cmpi .sge (x1 i) (0#32) = 1#1 := hb
  have hz : (0#32 : BitVec 32).toInt = 0 := by decide
  have := IntOp.cmpi_sge.1 hc
  omega

/-- An index vector with no negative entry is unchanged by the wrap-around of negative indices. -/
theorem wrap_eq_self (y : IVec S500000 32) (hy : ∀ i, 0 ≤ (y i).toInt)
    (hb : S_.BroadcastsInDim S500000 (![] : Fin 0 → Fin S500000.rank)) :
    select (cmpi .slt y (broadcastInDim S500000 ![] hb (constantI S_ 32 0#32)))
      (addi y (broadcastInDim S500000 ![] hb (constantI S_ 32 1024#32))) y = y := by
  funext i
  rw [select_apply]
  have hc : cmpi .slt y (broadcastInDim S500000 ![] hb (constantI S_ 32 0#32)) i = 0#1 := by
    apply eq_zero_of_ne_one
    intro hlt
    have hlt' : IntOp.cmpi .slt (y i) (0#32) = 1#1 := hlt
    have hz : (0#32 : BitVec 32).toInt = 0 := by decide
    have h1 := IntOp.cmpi_slt.1 hlt'
    have h2 := hy i
    omega
  rw [hc, select_zero]

end Cert.PreDecode

end
-- ==== Proof.Bridge.lean ====
/-
  The two programs' results are one function of the arguments, where no segment id is negative.

  Both results are `finish` of two halves of segment sums and of the node counts. The kernel's segment sums are the
  specification's sum with the exponent row's entry for the column; the reference's first scatter is that sum for the
  columns 0 … 63 with the first exponent, and its second scatter the same sum with the power spelt `(|v| + ε) ^ p`, which
  is `exp (p · log (|v| + ε))` because `|v| + ε` is a positive real for a finite `v`. The counts agree because wrapping a
  negative id around changes nothing when no id is negative.
-/
import proofs.«429115_j46815143526536_1_alg».proof.Proof.KSum
import proofs.«429115_j46815143526536_1_alg».proof.Proof.KTail
import proofs.«429115_j46815143526536_1_alg».proof.Proof.RefSeg
import proofs.«429115_j46815143526536_1_alg».proof.Proof.PreDecode

noncomputable section

open scoped BigOperators
open Idealize.ShloMosaic Idealize.ShloMosaic.TcCoe Idealize.SL.Sem Idealize.ShloMosaic.ValueIdx

namespace Cert.Proof.Bridge

open Cert.KernelIdeal Cert.KernelIdeal.Gen Cert.KernelIdeal.KVal Cert.SegPow

variable (m : (ℓ : Loc nD τ sig) → Buf (Elt Ideal) ℓ)

/-- The six arguments on core `c`, at their literal types. -/
abbrev A0 (c : Dev nD) : FVec Ideal S500000x128 .f32 := m ((c.tc : Thread nD τ).loc main_arg0)
abbrev A1 (c : Dev nD) : IVec S500000 32 := m ((c.tc : Thread nD τ).loc main_arg1)
abbrev A2 (c : Dev nD) : FVec Ideal S2 .f32 := m ((c.tc : Thread nD τ).loc main_arg2)
abbrev A3 (c : Dev nD) : FVec Ideal S2 .f32 := m ((c.tc : Thread nD τ).loc main_arg3)
abbrev A4 (c : Dev nD) : FVec Ideal S128x128 .f32 := m ((c.tc : Thread nD τ).loc main_arg4)
abbrev A5 (c : Dev nD) : FVec Ideal S128 .f32 := m ((c.tc : Thread nD τ).loc main_arg5)

/-- The left half of the kernel's segment sums is the reference's first scatter. -/
theorem left_eq (c : Dev nD) :
    extractStridedSlice S1024x64 ![0, 0] (result m c) slices_S1024x128_S1024x64_0_0
      = Cert.ReferenceIdeal.Read.val_main_v25 (F := Ideal) (A0 m c) (A1 m c) (A2 m c) := by
  funext j
  obtain ⟨r, d, rfl⟩ : ∃ (r : Fin 1024) (d : Fin 64), j = ix2 r d := ⟨j 0, j 1, eq_ix2 j⟩
  have hd := d.isLt
  rw [extractStridedSlice_apply _ _ slices_S1024x128_S1024x64_0_0 (ix2 r d) (ix2 r ⟨d.val, by omega⟩) (fun a => by
    match a with
    | ⟨0, _⟩ => show r.val = 0 + r.val; omega
    | ⟨1, _⟩ => show d.val = 0 + d.val; omega)]
  rw [result_apply, Cert.ReferenceIdeal.RefSeg.segPos_apply, expArr_left m c _ (by show d.val < 64; omega)]

/-- The right half is the reference's second scatter, the inputs being finite. -/
theorem right_eq (c : Dev nD) (hx : ∀ i, ∃ v : ℝ, A0 m c i = (v : EReal)) :
    extractStridedSlice S1024x64 ![0, 64] (result m c) slices_S1024x128_S1024x64_0_64
      = Cert.ReferenceIdeal.Read.val_main_v45 (F := Ideal) (A0 m c) (A1 m c) (A2 m c) := by
  funext j
  obtain ⟨r, d, rfl⟩ : ∃ (r : Fin 1024) (d : Fin 64), j = ix2 r d := ⟨j 0, j 1, eq_ix2 j⟩
  have hd := d.isLt
  rw [extractStridedSlice_apply _ _ slices_S1024x128_S1024x64_0_64 (ix2 r d) (ix2 r ⟨64 + d.val, by omega⟩) (fun a => by
    match a with
    | ⟨0, _⟩ => show r.val = 0 + r.val; omega
    | ⟨1, _⟩ => show 64 + d.val = 64 + d.val; rfl)]
  rw [result_apply, Cert.ReferenceIdeal.RefSeg.segNeg_apply, segSumPow_eq_segSum _ _ _ _ _ hx,
    expArr_right m c _ (by show 64 ≤ 64 + d.val; omega)]

/-- The kernel program's counts are the reference's, no id being negative. -/
theorem counts_eq (c : Dev nD) (hb : ∀ i, 0 ≤ (A1 m c i).toInt) :
    countsK (F := Ideal) (A1 m c) = Cert.ReferenceIdeal.Read.val_main_v11 (F := Ideal) (A1 m c) := by
  have hw : wrapped (A1 m c) = A1 m c := Cert.PreDecode.wrap_eq_self (A1 m c) hb bcast_S_S500000
  show Host.scatterAdd scatter_S1024_S500000x1_S500000_n_0_0_1 (broadcastInDim S1024 ![] bcast_S_S1024 (constant S_ .f32 0x00000000#32))
    (broadcastInDim S500000x1 ![0] bcast_S500000_S500000x1_0 (wrapped (A1 m c)))
    (broadcastInDim S500000 ![] bcast_S_S500000 (constant S_ .f32 0x3F800000#32)) = _
  rw [hw]
  rfl

/-- THE BRIDGE: under the precondition the kernel program's result is the reference's result term of the same arguments. -/
theorem out_eq (c : Dev nD)
    (hpre : Cert.Pre_finite_inputs.fn (F := Ideal) (A0 m c) (A1 m c) (A2 m c) (A3 m c) (A4 m c) (A5 m c) = fun _ => 1#1) :
    outK m c = Cert.ReferenceIdeal.Read.val_main_v62 (F := Ideal) (A0 m c) (A1 m c) (A2 m c) (A3 m c) (A4 m c) (A5 m c) := by
  have hx := Cert.PreDecode.x_real (A0 m c) (A1 m c) (A2 m c) (A3 m c) (A4 m c) (A5 m c) hpre
  have hb := Cert.PreDecode.seg_nonneg (A0 m c) (A1 m c) (A2 m c) (A3 m c) (A4 m c) (A5 m c) hpre
  rw [Cert.ReferenceIdeal.RefTail.ref_eq_finish]
  show Cert.ReferenceIdeal.RefTail.finish (F := Ideal)
    (extractStridedSlice S1024x64 ![0, 0] (result m c) slices_S1024x128_S1024x64_0_0)
    (extractStridedSlice S1024x64 ![0, 64] (result m c) slices_S1024x128_S1024x64_0_64)
    (countsK (A1 m c)) (A2 m c) (A3 m c) (A4 m c) (A5 m c) = _
  rw [left_eq m c, right_eq m c hx, counts_eq m c hb]

end Cert.Proof.Bridge

end
-- ==== Proof.lean ====
/-
  Generalised-norm pooling over graph segments: a kernel that sums `exp (p · log (|x| + ε))` over the nodes of each segment by
  multiplying a 0/1 segment mask with the transformed features block by block (163 blocks of 3072 rows, a running
  [1024, 128] block carried between the blocks), against a reference that scatter-adds the same powers at the segment
  ids; both then normalise the two halves of the sums by the per-segment node counts, join them, project and add a bias.

  At the ideal values the kernel's running block after the last block is, entry by entry, the sum over ALL nodes whose id
  is the row (Proof/KSum.lean: the blocks tile the padded rows, the padding rows carry an id that is no row), which is
  what a scatter-add of rows computes (Proof/RefSeg.lean); `exp (p · log a) = a ^ p` for the positive real `a = |x| + ε`
  joins the two spellings of the second half (Proof/SegMath.lean); and the two programs count the nodes of a segment
  alike when no id is negative — the one point where they differ otherwise, since the kernel program's count wraps a
  negative id around and the reference's drops it: the precondition states `batch ≥ 0` (Proof/PreDecode.lean). The
  rest of both programs is one function of the sums, the counts and the arguments (Proof/RefTail.lean), so the results
  agree (Proof/Bridge.lean). The three frame claims are the generated frames and the reference's generated run.
-/
import proofs.«429115_j46815143526536_1_alg».proof.Defs
import proofs.«429115_j46815143526536_1_alg».proof.Proof.Gen.Kernel
import proofs.«429115_j46815143526536_1_alg».proof.Proof.Gen.Kernel.Frame
import proofs.«429115_j46815143526536_1_alg».proof.Proof.Gen.KernelIdeal
import proofs.«429115_j46815143526536_1_alg».proof.Proof.Gen.KernelIdeal.Frame
import proofs.«429115_j46815143526536_1_alg».proof.Proof.Gen.ReferenceIdeal
import proofs.«429115_j46815143526536_1_alg».proof.Proof.Gen.Pre_finite_inputs
import proofs.«429115_j46815143526536_1_alg».proof.Proof.Gen.ReferenceIdeal.Run
import proofs.«429115_j46815143526536_1_alg».proof.Proof.Gen.ReferenceIdeal.Read
import proofs.«429115_j46815143526536_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the same result array: the kernel program's is `outK` of its arguments, the reference's its
    result term of arguments that agree, and under the precondition the two are equal (the bridge). -/
theorem algebraic : Cert.algebraic_KernelIdeal_ReferenceIdeal := by
  intro m ρ m' ρ' hpre hagree
  refine ⟨fun c => Cert.KernelIdeal.KVal.outK m c, Cert.KernelIdeal.KVal.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, (hagree c).1, (hagree c).2.1, (hagree c).2.2.1, (hagree c).2.2.2.1,
    (hagree c).2.2.2.2.1, (hagree c).2.2.2.2.2]
  exact (Cert.Proof.Bridge.out_eq m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
